-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v21)) (v1 : (c : Dev Cert.KernelIdeal.nD) → Buf (Elt Ideal) ((c.tc : Thread Cert.KernelIdeal.nD Cert.KernelIdeal.τ).loc Cert.KernelIdeal.main_arg1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x128 : Shape := ⟨2, ![500000, 128]⟩
abbrev S100000x128 : Shape := ⟨2, ![100000, 128]⟩
abbrev S500000 : Shape := ⟨1, ![500000]⟩
abbrev S384x128 : Shape := ⟨2, ![384, 128]⟩
abbrev S128 : Shape := ⟨1, ![128]⟩
abbrev S128x128 : Shape := ⟨2, ![128, 128]⟩
abbrev S_ : Shape := ⟨0, ![]⟩

class Facts : Prop where
  bcast_S_S500000x128 : S_.BroadcastsInDim S500000x128 (![] : Fin 0 → Fin S500000x128.rank)
  reducesTo_S500000x128_S_d0_1 : S500000x128.ReducesTo [0, 1] S_
  h_S_ : 0 < S_.numel
  bcast_S_S100000x128 : S_.BroadcastsInDim S100000x128 (![] : Fin 0 → Fin S100000x128.rank)
  reducesTo_S100000x128_S_d0_1 : S100000x128.ReducesTo [0, 1] S_
  bcast_S_S384x128 : S_.BroadcastsInDim S384x128 (![] : Fin 0 → Fin S384x128.rank)
  reducesTo_S384x128_S_d0_1 : S384x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part2 {F : FTy → Type} [FloatOps F] (main_arg9 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg6 : FVec F S128x128 .f32) (main_arg7 : FVec F S128 .f32) (main_arg8 : FVec F S128 .f32) (main_arg9 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_v33

def fn {F : FTy → Type} [FloatOps F] (main_arg0 : FVec F S500000x128 .f32) (main_arg1 : FVec F S100000x128 .f32) (main_arg2 : IVec S500000 32) (main_arg3 : IVec S500000 32) (main_arg4 : FVec F S384x128 .f32) (main_arg5 : FVec F S128 .f32) (main_arg6 : FVec F S128x128 .f32) (main_arg7 : FVec F S128 .f32) (main_arg8 : FVec F S128 .f32) (main_arg9 : FVec F S128 .f32) : IVec S_ 1 :=
  let main_v0 : FVec F S500000x128 .f32 := Host.absf main_arg0
  let main_cst : FVec F S_ .f32 := constant S_ .f32 0x7F800000#32
  let main_v1 : FVec F S500000x128 .f32 := broadcastInDim S500000x128 ![] bcast_S_S500000x128 main_cst
  let main_v2 : IVec S500000x128 1 := cmpf .olt main_v0 main_v1
  let main_c : IVec S_ 1 := constantI S_ 1 1#1
  let main_v3 : IVec S_ 1 := (fun x v => Host.reduce IntOp.andi x v reducesTo_S500000x128_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S384x128 .f32 := Host.absf main_arg4
  let main_cst_2 : FVec F S_ .f32 := constant S_ .f32 0x7F800000#32
  let main_v10 : FVec F S384x128 .f32 := broadcastInDim S384x128 ![] bcast_S_S384x128 main_cst_2
  let main_v11 : IVec S384x128 1 := cmpf .olt main_v9 main_v10
  let main_c_3 : IVec S_ 1 := constantI S_ 1 1#1
  let main_v12 : IVec S_ 1 := (fun x v => Host.reduce IntOp.andi x v reducesTo_S384x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_v13 main_v16
-- ==== Kernel.lean ====
abbrev S500000x128 : Shape := ⟨2, ![500000, 128]⟩
abbrev S100000x128 : Shape := ⟨2, ![100000, 128]⟩
abbrev S500000 : Shape := ⟨1, ![500000]⟩
abbrev S384x128 : Shape := ⟨2, ![384, 128]⟩
abbrev S128 : Shape := ⟨1, ![128]⟩
abbrev S128x128 : Shape := ⟨2, ![128, 128]⟩
abbrev S_ : Shape := ⟨0, ![]⟩
abbrev S500000x1 : Shape := ⟨2, ![500000, 1]⟩
abbrev S503808x128 : Shape := ⟨2, ![503808, 128]⟩
abbrev S4096x128 : Shape := ⟨2, ![4096, 128]⟩
abbrev S1x128 : Shape := ⟨2, ![1, 128]⟩
abbrev S4096 : Shape := ⟨1, ![4096]⟩
abbrev S4096x1 : Shape := ⟨2, ![4096, 1]⟩

abbrev nBuf : Space → Nat
  | .hbm => 42
  | .vmem => 16
  | .smem => 0
  | _ => 0

abbrev bufTy : (tb : Table) → Fin (tcTables nBuf tb) → BufTy
  | .hbm, ⟨0, _⟩ => ⟨S500000x128, .f32⟩
  | .hbm, ⟨1, _⟩ => ⟨S100000x128, .f32⟩
  | .hbm, ⟨2, _⟩ => ⟨S500000, .i32⟩
  | .hbm, ⟨3, _⟩ => ⟨S500000, .i32⟩
  | .hbm, ⟨4, _⟩ => ⟨S384x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S_, .i32⟩
  | .hbm, ⟨11, _⟩ => ⟨S500000, .i32⟩
  | .hbm, ⟨12, _⟩ => ⟨S500000, .i1⟩
  | .hbm, ⟨13, _⟩ => ⟨S_, .i32⟩
  | .hbm, ⟨14, _⟩ => ⟨S500000, .i32⟩
  | .hbm, ⟨15, _⟩ => ⟨S500000, .i32⟩
  | .hbm, ⟨16, _⟩ => ⟨S500000, .i32⟩
  | .hbm, ⟨17, _⟩ => ⟨S500000x1, .i32⟩
  | .hbm, ⟨18, _⟩ => ⟨S500000x128, .f32⟩
  | .hbm, ⟨19, _⟩ => ⟨S_, .i32⟩
  | .hbm, ⟨20, _⟩ => ⟨S500000, .i32⟩
  | .hbm, ⟨21, _⟩ => ⟨S500000, .i1⟩
  | .hbm, ⟨22, _⟩ => ⟨S_, .i32⟩
  | .hbm, ⟨23, _⟩ => ⟨S500000, .i32⟩
  | .hbm, ⟨24, _⟩ => ⟨S500000, .i32⟩
  | .hbm, ⟨25, _⟩ => ⟨S500000, .i32⟩
  | .hbm, ⟨26, _⟩ => ⟨S500000x1, .i32⟩
  | .hbm, ⟨27, _⟩ => ⟨S500000x128, .f32⟩
  | .hbm, ⟨28, _⟩ => ⟨S_, .i32⟩
  | .hbm, ⟨29, _⟩ => ⟨S_, .f32⟩
  | .hbm, ⟨30, _⟩ => ⟨S503808x128, .f32⟩
  | .hbm, ⟨31, _⟩ => ⟨S_, .i32⟩
  | .hbm, ⟨32, _⟩ => ⟨S_, .f32⟩
  | .hbm, ⟨33, _⟩ => ⟨S503808x128, .f32⟩
  | .hbm, ⟨34, _⟩ => ⟨S_, .i32⟩
  | .hbm, ⟨35, _⟩ => ⟨S_, .f32⟩
  | .hbm, ⟨36, _⟩ => ⟨S503808x128, .f32⟩
  | .hbm, ⟨37, _⟩ => ⟨S128x128, .f32⟩
  | .hbm, ⟨38, _⟩ => ⟨S128x128, .f32⟩
  | .hbm, ⟨39, _⟩ => ⟨S128x128, .f32⟩
  | .hbm, ⟨40, _⟩ => ⟨S503808x128, .f32⟩
  | .hbm, ⟨41, _⟩ => ⟨S500000x128, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128, .f32⟩
  | .local _ .vmem, ⟨10, _⟩ => ⟨S128x128, .f32⟩
  | .local _ .vmem, ⟨11, _⟩ => ⟨S128, .f32⟩
  | .local _ .vmem, ⟨12, _⟩ => ⟨S128, .f32⟩
  | .local _ .vmem, ⟨13, _⟩ => ⟨S128, .f32⟩
  | .local _ .vmem, ⟨14, _⟩ => ⟨S4096x128, .f32⟩
  | .local _ .vmem, ⟨15, _⟩ => ⟨S4096x128, .f32⟩
  | _, _ => ⟨S500000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c_1 : Ref sig .tc := ⟨.hbm, 19, rfl⟩
abbrev main_v7 : Ref sig .tc := ⟨.hbm, 20, rfl⟩
abbrev main_v8 : Ref sig .tc := ⟨.hbm, 21, rfl⟩
abbrev main_c_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_c_3 : Ref sig .tc := ⟨.hbm, 28, rfl⟩
abbrev main_call0_v0 : Ref sig .tc := ⟨.hbm, 29, rfl⟩
abbrev main_v14 : Ref sig .tc := ⟨.hbm, 30, rfl⟩
abbrev main_c_4 : Ref sig .tc := ⟨.hbm, 31, rfl⟩
abbrev main_call1_v0 : Ref sig .tc := ⟨.hbm, 32, rfl⟩
abbrev main_v15 : Ref sig .tc := ⟨.hbm, 33, rfl⟩
abbrev main_c_5 : Ref sig .tc := ⟨.hbm, 34, rfl⟩
abbrev main_call2_v0 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![123], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S4096x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  bcast_S_S500000 : S_.BroadcastsInDim S500000 (![] : Fin 0 → Fin S500000.rank)
  bcast_S500000_S500000x1_0 : S500000.BroadcastsInDim S500000x1 (![0] : Fin 1 → Fin S500000x1.rank)
  pads_S500000x128_S503808x128_038080_000 : S500000x128.Pads (![0, 0] : Fin 2 → Nat) ![3808, 0] ![0, 0] S503808x128
  h_S_ : 0 < S_.numel
  slices_S384x128_S128x128_0_0 : S384x128.Slices ![0, 0] S128x128
  slices_S384x128_S128x128_128_0 : S384x128.Slices ![128, 0] S128x128
  slices_S384x128_S128x128_256_0 : S384x128.Slices ![256, 0] S128x128
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S4096x128 : S1x128.Broadcasts S4096x128
  reduces_S4096x128_S4096 : S4096x128.Reduces [1] S4096
  shapeCasts_S4096_S4096x1 : S4096.ShapeCasts S4096x1
  broadcasts_S4096x1_S4096x128 : S4096x1.Broadcasts S4096x128
  slices_S503808x128_S500000x128_0_0 : S503808x128.Slices ![0, 0] S500000x128
  gather_S100000x128_S500000x1_S500000x128_1_0_n_n_0_1_1128_wf : GatherDims.WF S100000x128 S500000x1 S500000x128 [1] [0] [] [0] [] 1 ![1, 128]
  dot_S4096x128_S128x128_S4096x128_1_0_0_1_n_n_wf : DotDims.WF S4096x128 S128x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S503808x128.size a
  hwx0_0 : ∀ i : grid0.Coords, EltTy.bits .f32 = 32 ∨ (Rect.block (s := S503808x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S503808x128.size a
  hwx0_1 : ∀ i : grid0.Coords, EltTy.bits .f32 = 32 ∨ (Rect.block (s := S503808x128) S4096x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x128.size a ≤ S503808x128.size a
  hwx0_2 : ∀ i : grid0.Coords, EltTy.bits .f32 = 32 ∨ (Rect.block (s := S503808x128) S4096x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128.size a ≤ S128.size a
  hwx0_9 : ∀ i : grid0.Coords, EltTy.bits .f32 = 32 ∨ (Rect.block (s := S128) S128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128.size a ≤ S128.size a
  hwx0_10 : ∀ i : grid0.Coords, EltTy.bits .f32 = 32 ∨ (Rect.block (s := S128) S128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S4096x128.size a ≤ S503808x128.size a
  hwx0_11 : ∀ i : grid0.Coords, EltTy.bits .f32 = 32 ∨ (Rect.block (s := S503808x128) S4096x128.size (cc0_transform_11 i) (hinb0_11 i)).WholeWords (EltTy.packing .f32)

variable [Facts₀]

def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf

abbrev win0_0 : Pipeline.Window sig grid0 :=
  Pipeline.Window.ofSpec (Memref.whole main_v14) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S4096x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v18) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg7) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg8) S128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg9) S128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v20) S4096x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S500000x128 : Shape := ⟨2, ![500000, 128]⟩
abbrev S100000x128 : Shape := ⟨2, ![100000, 128]⟩
abbrev S500000 : Shape := ⟨1, ![500000]⟩
abbrev S384x128 : Shape := ⟨2, ![384, 128]⟩
abbrev S128 : Shape := ⟨1, ![128]⟩
abbrev S128x128 : Shape := ⟨2, ![128, 128]⟩
abbrev S_ : Shape := ⟨0, ![]⟩
abbrev S500000x1 : Shape := ⟨2, ![500000, 1]⟩
abbrev S500000x384 : Shape := ⟨2, ![500000, 384]⟩
abbrev S1x128 : Shape := ⟨2, ![1, 128]⟩

abbrev nBuf : Space → Nat
  | .hbm => 76
  | .vmem => 0
  | .smem => 0
  | _ => 0

abbrev bufTy : (tb : Table) → Fin (tcTables nBuf tb) → BufTy
  | .hbm, ⟨0, _⟩ => ⟨S500000x128, .f32⟩
  | .hbm, ⟨1, _⟩ => ⟨S100000x128, .f32⟩
  | .hbm, ⟨2, _⟩ => ⟨S500000, .i32⟩
  | .hbm, ⟨3, _⟩ => ⟨S500000, .i32⟩
  | .hbm, ⟨4, _⟩ => ⟨S384x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S_, .i32⟩
  | .hbm, ⟨11, _⟩ => ⟨S500000, .i32⟩
  | .hbm, ⟨12, _⟩ => ⟨S500000, .i1⟩
  | .hbm, ⟨13, _⟩ => ⟨S_, .i32⟩
  | .hbm, ⟨14, _⟩ => ⟨S500000, .i32⟩
  | .hbm, ⟨15, _⟩ => ⟨S500000, .i32⟩
  | .hbm, ⟨16, _⟩ => ⟨S500000, .i32⟩
  | .hbm, ⟨17, _⟩ => ⟨S500000x1, .i32⟩
  | .hbm, ⟨18, _⟩ => ⟨S500000x128, .f32⟩
  | .hbm, ⟨19, _⟩ => ⟨S_, .i32⟩
  | .hbm, ⟨20, _⟩ => ⟨S500000, .i32⟩
  | .hbm, ⟨21, _⟩ => ⟨S500000, .i1⟩
  | .hbm, ⟨22, _⟩ => ⟨S_, .i32⟩
  | .hbm, ⟨23, _⟩ => ⟨S500000, .i32⟩
  | .hbm, ⟨24, _⟩ => ⟨S500000, .i32⟩
  | .hbm, ⟨25, _⟩ => ⟨S500000, .i32⟩
  | .hbm, ⟨26, _⟩ => ⟨S500000x1, .i32⟩
  | .hbm, ⟨27, _⟩ => ⟨S500000x128, .f32⟩
  | .hbm, ⟨28, _⟩ => ⟨S500000x384, .f32⟩
  | .hbm, ⟨29, _⟩ => ⟨S500000x128, .f32⟩
  | .hbm, ⟨30, _⟩ => ⟨S1x128, .f32⟩
  | .hbm, ⟨31, _⟩ => ⟨S500000x128, .f32⟩
  | .hbm, ⟨32, _⟩ => ⟨S500000x128, .f32⟩
  | .hbm, ⟨33, _⟩ => ⟨S500000x128, .f32⟩
  | .hbm, ⟨34, _⟩ => ⟨S500000x128, .f32⟩
  | .hbm, ⟨35, _⟩ => ⟨S_, .f32⟩
  | .hbm, ⟨36, _⟩ => ⟨S500000x128, .f32⟩
  | .hbm, ⟨37, _⟩ => ⟨S500000x128, .f32⟩
  | .hbm, ⟨38, _⟩ => ⟨S_, .f32⟩
  | .hbm, ⟨39, _⟩ => ⟨S500000x128, .f32⟩
  | .hbm, ⟨40, _⟩ => ⟨S500000x128, .f32⟩
  | .hbm, ⟨41, _⟩ => ⟨S500000x128, .f32⟩
  | .hbm, ⟨42, _⟩ => ⟨S500000x128, .f32⟩
  | .hbm, ⟨43, _⟩ => ⟨S1x128, .f32⟩
  | .hbm, ⟨44, _⟩ => ⟨S500000x128, .f32⟩
  | .hbm, ⟨45, _⟩ => ⟨S500000x128, .f32⟩
  | .hbm, ⟨46, _⟩ => ⟨S_, .f32⟩
  | .hbm, ⟨47, _⟩ => ⟨S500000, .f32⟩
  | .hbm, ⟨48, _⟩ => ⟨S500000x1, .f32⟩
  | .hbm, ⟨49, _⟩ => ⟨S_, .f32⟩
  | .hbm, ⟨50, _⟩ => ⟨S500000x1, .f32⟩
  | .hbm, ⟨51, _⟩ => ⟨S500000x1, .f32⟩
  | .hbm, ⟨52, _⟩ => ⟨S500000x128, .f32⟩
  | .hbm, ⟨53, _⟩ => ⟨S500000x128, .f32⟩
  | .hbm, ⟨54, _⟩ => ⟨S500000x128, .f32⟩
  | .hbm, ⟨55, _⟩ => ⟨S_, .f32⟩
  | .hbm, ⟨56, _⟩ => ⟨S500000, .f32⟩
  | .hbm, ⟨57, _⟩ => ⟨S500000x1, .f32⟩
  | .hbm, ⟨58, _⟩ => ⟨S_, .f32⟩
  | .hbm, ⟨59, _⟩ => ⟨S500000x1, .f32⟩
  | .hbm, ⟨60, _⟩ => ⟨S500000x1, .f32⟩
  | .hbm, ⟨61, _⟩ => ⟨S500000x128, .f32⟩
  | .hbm, ⟨62, _⟩ => ⟨S500000x128, .f32⟩
  | .hbm, ⟨63, _⟩ => ⟨S_, .f32⟩
  | .hbm, ⟨64, _⟩ => ⟨S500000x1, .f32⟩
  | .hbm, ⟨65, _⟩ => ⟨S500000x1, .f32⟩
  | .hbm, ⟨66, _⟩ => ⟨S500000x1, .f32⟩
  | .hbm, ⟨67, _⟩ => ⟨S500000x128, .f32⟩
  | .hbm, ⟨68, _⟩ => ⟨S500000x128, .f32⟩
  | .hbm, ⟨69, _⟩ => ⟨S1x128, .f32⟩
  | .hbm, ⟨70, _⟩ => ⟨S500000x128, .f32⟩
  | .hbm, ⟨71, _⟩ => ⟨S500000x128, .f32⟩
  | .hbm, ⟨72, _⟩ => ⟨S1x128, .f32⟩
  | .hbm, ⟨73, _⟩ => ⟨S500000x128, .f32⟩
  | .hbm, ⟨74, _⟩ => ⟨S500000x128, .f32⟩
  | .hbm, ⟨75, _⟩ => ⟨S500000x128, .f32⟩
  | _, _ => ⟨S500000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c_1 : Ref sig .tc := ⟨.hbm, 19, rfl⟩
abbrev main_v7 : Ref sig .tc := ⟨.hbm, 20, rfl⟩
abbrev main_v8 : Ref sig .tc := ⟨.hbm, 21, rfl⟩
abbrev main_c_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_cst : Ref sig .tc := ⟨.hbm, 46, rfl⟩
abbrev main_v24 : Ref sig .tc := ⟨.hbm, 47, rfl⟩
abbrev main_v25 : Ref sig .tc := ⟨.hbm, 48, rfl⟩
abbrev main_cst_3 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_cst_4 : Ref sig .tc := ⟨.hbm, 55, rfl⟩
abbrev main_v31 : Ref sig .tc := ⟨.hbm, 56, rfl⟩
abbrev main_v32 : Ref sig .tc := ⟨.hbm, 57, rfl⟩
abbrev main_cst_5 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_cst_6 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩

abbrev nD : Nat := 1
abbrev τ : Topo := Topo.v7x

variable {F : FTy → Type} [FloatOps F]

class Facts₀ : Prop where
  bcast_S_S500000 : S_.BroadcastsInDim S500000 (![] : Fin 0 → Fin S500000.rank)
  bcast_S500000_S500000x1_0 : S500000.BroadcastsInDim S500000x1 (![0] : Fin 1 → Fin S500000x1.rank)
  concatenates_S500000x128_S500000x128_S500000x128_S500000x384_d1 : Shape.Concatenates [S500000x128, S500000x128, S500000x128] S500000x384 1
  bcast_S128_S1x128_1 : S128.BroadcastsInDim S1x128 (![1] : Fin 1 → Fin S1x128.rank)
  bcast_S1x128_S500000x128_0_1 : S1x128.BroadcastsInDim S500000x128 (![0, 1] : Fin 2 → Fin S500000x128.rank)
  bcast_S_S500000x128 : S_.BroadcastsInDim S500000x128 (![] : Fin 0 → Fin S500000x128.rank)
  reducesTo_S500000x128_S500000_d1 : S500000x128.ReducesTo [1] S500000
  h_S_ : 0 < S_.numel
  bcast_S_S500000x1 : S_.BroadcastsInDim S500000x1 (![] : Fin 0 → Fin S500000x1.rank)
  bcast_S500000x1_S500000x128_0_1 : S500000x1.BroadcastsInDim S500000x128 (![0, 1] : Fin 2 → Fin S500000x128.rank)
  gather_S100000x128_S500000x1_S500000x128_1_0_n_n_0_1_1128_wf : GatherDims.WF S100000x128 S500000x1 S500000x128 [1] [0] [] [0] [] 1 ![1, 128]
  dot_S500000x384_S384x128_S500000x128_1_0_0_1_n_n_wf : DotDims.WF S500000x384 S384x128 S500000x128 [1] [0] [0] [1] [] []
  dot_S500000x128_S128x128_S500000x128_1_0_0_1_n_n_wf : DotDims.WF S500000x128 S128x128 S500000x128 [1] [0] [0] [1] [] []

variable [Facts₀]

def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def dot_S500000x384_S384x128_S500000x128_1_0_0_1_n_n : DotDims S500000x384 S384x128 S500000x128 where
  lhsContracting := [1]
  rhsContracting := [0]
  lhsNonContracting := [0]
  rhsNonContracting := [1]
  lhsBatch := []
  rhsBatch := []
  wf := dot_S500000x384_S384x128_S500000x128_1_0_0_1_n_n_wf
def dot_S500000x128_S128x128_S500000x128_1_0_0_1_n_n : DotDims S500000x128 S128x128 S500000x128 where
  lhsContracting := [1]
  rhsContracting := [0]
  lhsNonContracting := [0]
  rhsNonContracting := [1]
  lhsBatch := []
  rhsBatch := []
  wf := dot_S500000x128_S128x128_S500000x128_1_0_0_1_n_n_wf

class Facts : Prop extends Facts₀ where

variable [Facts]
-- ==== Proof.LibRowOps.lean ====
/-
  Row-wise readings of the operations a row-parallel kernel body is made of, at an index written with the
  coordinate constructors: a plain `M × K` by `K × N` matrix product into a zero accumulator read at `(p, q)` is the
  sum over `k` of the left operand's row `p` times the right operand's column `q`; a sum (a maximum) along the
  second axis of an `[a, b]` array read at row `p` is the sum (the fold of `max`) of that row's entries.
-/
import Idealize.ShloMosaic.Lib.ValueIdx
import Idealize.ShloMosaic.PureOps.Ideal.Laws

namespace Cert.LibRowOps

open Idealize.ShloMosaic Idealize.ShloMosaic.ValueIdx

/-! ## A plain matrix product -/

section Plain
variable (M K N : ℕ)

theorem plain_lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

theorem plain_lhs_contr (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem plain_rhs_contr (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem plain_rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The product of an `[M, K]` by a `[K, N]` array accumulated into zero, at `(p, q)`: the sum over the contracted
    coordinate of row `p` of the left factor times column `q` of the right one. -/
theorem matmul_plain_zero_apply {φ₁ φ₂ : FTy} (l : FVec Ideal ⟨2, ![M, K]⟩ φ₁) (r : FVec Ideal ⟨2, ![K, N]⟩ φ₂)
    (p : Fin M) (q : Fin N) :
    FloatOps.matmul (DotDims.plain M K N) none l r (constant (F := Ideal) ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs_row M K N _ _
      | ⟨1, _⟩ => exact (plain_lhs_contr M K N _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs_contr M K N _ _).trans hk
      | ⟨1, _⟩ => exact plain_rhs_col M K N _ _)
  rw [el, er]

end Plain

/-! ## Reductions along the rows of a matrix -/

section Rows
variable {a b : ℕ} {φ : FTy}

/-- Over row `p` of the reduced vector, the source index with coordinate `k` put back on the dropped axis is `(p, k)`. -/
theorem lift_row (h : (⟨2, ![a, b]⟩ : Shape).Reduces [1] ⟨1, ![a]⟩) (p : Fin a) (k : Fin b) :
    h.lift (ix1 p) k = ix2 p k :=
  funext fun c => Fin.ext (by match c with | ⟨0, _⟩ => rfl | ⟨1, _⟩ => rfl)

/-- A sum along the second axis, at row `p`: the sum of the row's entries. -/
theorem rowSum_apply (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (lift_row h p k))

/-- A maximum along the second axis, at row `p`: the fold of `max`, from the accumulator's value, over the row's entries. -/
theorem rowMax_apply (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ src acc h hφ hacc (ix1 p)
      = (Finset.univ : Finset (Fin b)).fold max (Ideal.ofBits φ acc) (fun k => src (ix2 p k)) :=
  (Ideal.multiReduction_maximumf_single src acc h hφ hacc (ix1 p)).trans
    (congrArg (Finset.fold max (Ideal.ofBits φ acc) · Finset.univ) (funext fun k => congrArg src (lift_row h p k)))

end Rows

end Cert.LibRowOps
-- ==== Proof.LibColumn.lean ====
/-
  Column forms of the layout operations, read at an index written with the coordinate constructors:
  what a row reduction with `keepdims` needs. A vector `[a]` cast to a column `[a, 1]` reads, at `(i, u)`,
  the vector at `i` (the row-major position of `(i, u)` in `[a, 1]` is `i`); a column `[a, 1]` broadcast
  to `[a, b]` reads, at `(p, c)`, the column at row `p` (the unit axis contributes coordinate `0`).
-/
import Idealize.ShloMosaic.Lib.ValueLayout

namespace Cert.LibColumn

open Idealize.ShloMosaic Idealize.ShloMosaic.ValueIdx

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.RowSpec.lean ====
/-
  One edge of the message-passing layer, as a function of three feature rows.

  The layer sends an edge's own row `e` and the rows `s`, `d` of its two end nodes through a two-layer
  perceptron and a layer normalisation, and adds `e` back:

    h   = [e | s | d] · W₁ + b₁                       (384 → 128)
    a   = h · σ(h),  σ(h) = 1 / (1 + exp (-h))          (SiLU)
    y   = a · W₂ + b₂                                  (128 → 128)
    out = (y - μ) · rsqrt (var + ε) · γ + β + e,        μ = Σ y / 128,  var = Σ (y - μ)² / 128

  over the extended reals. The first layer is written twice: as ONE sum over the 384 joined coordinates
  (`hidden1`) and as THREE sums over 128 coordinates each, one per operand and per 128-row slab of `W₁`, added in
  order (`hidden3`). The two are the same number (`hidden1_eq_hidden3`): a finite sum over `Fin 384` splits at 128
  and 256, and addition of extended reals is associative and commutative, so no finiteness is asked of the entries.
  `rowsOut n` applies the row function to every row of `[n, 128]` arrays; its value at row `r` reads row `r` of
  each array and nothing else (`rowsOut_row`), which is what lets a block, a padded array and a cut array be
  compared row by row.
-/
import Idealize.ShloMosaic.PureOps.Ideal
import Idealize.ShloMosaic.Lib.ValueIdx
import Mathlib.Algebra.BigOperators.Fin

noncomputable section

namespace Cert.EdgeRow

open Idealize.ShloMosaic Idealize.ShloMosaic.ValueIdx

/-- The divisor 128 and the variance offset, as the f32 words both programs carry. -/
abbrev c128 : EReal := Ideal.ofBits .f32 0x43000000#32
abbrev ceps : EReal := Ideal.ofBits .f32 0x3727C5AC#32

/-- The first layer as three sums added in order, then the bias. -/
def hidden3 (e s d : Fin 128 → EReal) (A B C : Fin 128 → Fin 128 → EReal) (b : Fin 128 → EReal) (j : Fin 128) : EReal :=
  (∑ k, e k * A k j) + (∑ k, s k * B k j) + (∑ k, d k * C k j) + b j

/-- The first layer as one sum over the joined row, then the bias. -/
def hidden1 (c : Fin 384 → EReal) (W : Fin 384 → Fin 128 → EReal) (b : Fin 128 → EReal) (j : Fin 128) : EReal :=
  (∑ k, c k * W k j) + b j

/-- SiLU: `h · σ(h)`. -/
def silu (h : EReal) : EReal := h * Ideal.logistic h

/-- A dense layer on one row. -/
def dense (a : Fin 128 → EReal) (W : Fin 128 → Fin 128 → EReal) (b : Fin 128 → EReal) (j : Fin 128) : EReal :=
  (∑ k, a k * W k j) + b j

/-- The row's mean and its (biased) variance. -/
def mean (y : Fin 128 → EReal) : EReal := Ideal.div (∑ k, y k) c128
def variance (y : Fin 128 → EReal) : EReal := Ideal.div (∑ k, (y k - mean y) * (y k - mean y)) c128

/-- Layer normalisation with scale and shift, plus the residual row. -/
def normRes (y e γ β : Fin 128 → EReal) (j : Fin 128) : EReal :=
  (y j - mean y) * Ideal.rsqrt (variance y + ceps) * γ j + β j + e j

/-- From the first layer's output `h` to the edge's new row. -/
def edgeOut (h e : Fin 128 → EReal) (W₂ : Fin 128 → Fin 128 → EReal) (b₂ γ β : Fin 128 → EReal) : Fin 128 → EReal :=
  normRes (dense (fun k => silu (h k)) W₂ b₂) e γ β

/-- A sum over 384 coordinates is the sum of its three stretches of 128. -/
theorem sum_three (f : Fin 384 → EReal) :
    ∑ k, f k = (∑ k : Fin 128, f ⟨k.val, by omega⟩) + (∑ k : Fin 128, f ⟨128 + k.val, by omega⟩)
      + ∑ k : Fin 128, f ⟨256 + k.val, by omega⟩ := by
  show ∑ k : Fin (128 + 128 + 128), f k = _
  rw [Fin.sum_univ_add, Fin.sum_univ_add]
  rfl

/-- The joined first layer is the three-slab first layer, when the joined row is `e`, `s`, `d` laid end to end
    and `A`, `B`, `C` are the three 128-row slabs of `W`. -/
theorem hidden1_eq_hidden3 (c : Fin 384 → EReal) (W : Fin 384 → Fin 128 → EReal) (b : Fin 128 → EReal)
    (e s d : Fin 128 → EReal) (A B C : Fin 128 → Fin 128 → EReal)
    (he : ∀ k : Fin 128, c ⟨k.val, by omega⟩ = e k) (hs : ∀ k : Fin 128, c ⟨128 + k.val, by omega⟩ = s k)
    (hd : ∀ k : Fin 128, c ⟨256 + k.val, by omega⟩ = d k)
    (hA : ∀ (k : Fin 128) j, W ⟨k.val, by omega⟩ j = A k j) (hB : ∀ (k : Fin 128) j, W ⟨128 + k.val, by omega⟩ j = B k j)
    (hC : ∀ (k : Fin 128) j, W ⟨256 + k.val, by omega⟩ j = C k j) :
    hidden1 c W b = hidden3 e s d A B C b := by
  funext j
  unfold hidden1 hidden3
  rw [sum_three]
  simp only [he, hs, hd, hA, hB, hC]

/-! ## Every row of an array -/

section Rows
variable (n : ℕ)

/-- The layer on every row of `[n, 128]` arrays: the three slabs and the second weight as `[128, 128]` arrays, the
    biases, scale and shift as `[128]` arrays. -/
def rowsOut (E S D : (⟨2, ![n, 128]⟩ : Shape).Idx → EReal) (A B C W₂ : (⟨2, ![128, 128]⟩ : Shape).Idx → EReal)
    (b₁ b₂ γ β : (⟨1, ![128]⟩ : Shape).Idx → EReal) : (⟨2, ![n, 128]⟩ : Shape).Idx → EReal := fun i =>
  edgeOut (hidden3 (fun k => E (ix2 (i 0) k)) (fun k => S (ix2 (i 0) k)) (fun k => D (ix2 (i 0) k))
      (fun k j => A (ix2 k j)) (fun k j => B (ix2 k j)) (fun k j => C (ix2 k j)) (fun j => b₁ (ix1 j)))
    (fun k => E (ix2 (i 0) k)) (fun k j => W₂ (ix2 k j)) (fun j => b₂ (ix1 j)) (fun j => γ (ix1 j)) (fun j => β (ix1 j)) (i 1)

end Rows

/-- Row `r` of the result reads row `r` of the three row arrays only: two families of arrays, of any two heights,
    that agree on a pair of rows give the same result row. -/
theorem rowsOut_row {n n' : ℕ} (E S D : (⟨2, ![n, 128]⟩ : Shape).Idx → EReal) (E' S' D' : (⟨2, ![n', 128]⟩ : Shape).Idx → EReal)
    (A B C W₂ : (⟨2, ![128, 128]⟩ : Shape).Idx → EReal) (b₁ b₂ γ β : (⟨1, ![128]⟩ : Shape).Idx → EReal)
    (r : Fin n) (r' : Fin n') (hE : ∀ k, E (ix2 r k) = E' (ix2 r' k)) (hS : ∀ k, S (ix2 r k) = S' (ix2 r' k))
    (hD : ∀ k, D (ix2 r k) = D' (ix2 r' k)) (q : Fin 128) :
    rowsOut n E S D A B C W₂ b₁ b₂ γ β (ix2 r q) = rowsOut n' E' S' D' A B C W₂ b₁ b₂ γ β (ix2 r' q) := by
  show edgeOut (hidden3 (fun k => E (ix2 r k)) (fun k => S (ix2 r k)) (fun k => D (ix2 r k)) _ _ _ _) (fun k => E (ix2 r k)) _ _ _ _ q
    = edgeOut (hidden3 (fun k => E' (ix2 r' k)) (fun k => S' (ix2 r' k)) (fun k => D' (ix2 r' k)) _ _ _ _) (fun k => E' (ix2 r' k)) _ _ _ _ q
  rw [funext hE, funext hS, funext hD]

end Cert.EdgeRow

end
-- ==== Proof.KernelBlock.lean ====
/-
  What one grid step of the kernel writes, entry by entry.

  The body loads a [4096, 128] block of each of the three row arrays, the three [128, 128] slabs of the first
  weight, the second weight and the four [128] vectors, and stores one [4096, 128] block. Its arithmetic is row-local:
  entry (p, q) of the stored block is the edge function of row p of the three row blocks (`block_eq`). The steps
  are read at an entry one operation at a time: a matrix product into zero is the sum over the contracted
  coordinate, a [128] vector cast to [1, 128] and spread over the rows reads the vector at the column, a row sum
  cast to a column and spread over the columns reads the row's sum, and the pointwise operations read pointwise.
-/
import proofs.«106251_j79156247265436_1_alg».proof.Proof.Gen.KernelIdeal.Skeleton
import proofs.«106251_j79156247265436_1_alg».proof.Proof.LibRowOps
import proofs.«106251_j79156247265436_1_alg».proof.Proof.LibColumn
import proofs.«106251_j79156247265436_1_alg».proof.Proof.RowSpec
import Idealize.ShloMosaic.Lib.ValueLayout
import Idealize.ShloMosaic.Lib.Pipeline.Value
import Idealize.ShloMosaic.PureOps.Ideal.Laws

noncomputable section

namespace Cert.KernelIdeal.Block

open Idealize.ShloMosaic Idealize.ShloMosaic.ValueIdx Cert.KernelIdeal Cert.KernelIdeal.Gen Cert.EdgeRow

variable (p : Fin 4096) (q : Fin 128)

/-! ## The body's operations at an entry -/

/-- A [4096, 128] by [128, 128] product accumulated into zero, at (p, q). -/
theorem mm_apply {φ₁ φ₂ : FTy} (l : FVec Ideal S4096x128 φ₁) (r : FVec Ideal S128x128 φ₂) :
    matmul dot_S4096x128_S128x128_S4096x128_1_0_0_1_n_n none l r (constant S4096x128 .f32 0x00000000#32) (ix2 p q)
      = ∑ k : Fin 128, l (ix2 p k) * r (ix2 k q) :=
  LibRowOps.matmul_plain_zero_apply 4096 128 128 l r p q

/-- A [128] vector as a row spread over the 4096 rows reads the vector at the column. -/
theorem row_apply (v : Vec Ideal S128 .f32) :
    broadcastTo S4096x128 (shapeCast S1x128 v shapeCasts_S128_S1x128) broadcasts_S1x128_S4096x128 (ix2 p q) = v (ix1 q) :=
  (broadcastTo_1b_ab_apply _ _ p q).trans (shapeCast_a_1a_apply v _ 0 q)

/-- A [4096] vector as a column reads the vector at the row. -/
theorem col_apply (v : FVec Ideal S4096 .f32) (u : Fin 1) :
    shapeCast S4096x1 v shapeCasts_S4096_S4096x1 (ix2 p u) = v (ix1 p) :=
  LibColumn.shapeCast_a_a1_apply v _ p u

/-- A [4096, 1] column spread over the 128 columns reads the column at the row. -/
theorem spread_apply (v : FVec Ideal S4096x1 .f32) :
    broadcastTo S4096x128 v broadcasts_S4096x1_S4096x128 (ix2 p q) = v (ix2 p (0 : Fin 1)) :=
  LibColumn.broadcastTo_a1_ab_apply v _ p q

/-- A sum along the rows of a [4096, 128] array, at row p. -/
theorem rsum_apply (v : FVec Ideal S4096x128 .f32) :
    multiReduction .add [1] S4096 v 0x00000000#32 reduces_S4096x128_S4096 (.inl rfl) rfl (ix1 p) = ∑ k : Fin 128, v (ix2 p k) :=
  LibRowOps.rowSum_apply v _ _ _ _ p

theorem rsqrt_apply {s : Shape} (x : FVec Ideal s .f32) (i : s.Idx) : rsqrt x i = Ideal.rsqrt (x i) := rfl
theorem logistic_apply {s : Shape} (x : FVec Ideal s .f32) (i : s.Idx) : logistic x i = Ideal.logistic (x i) := rfl
theorem scalar_apply (w : BitVec 32) : Scalar.ofBits (F := Ideal) .f32 w = Ideal.ofBits .f32 w := rfl

/-! ## The first layer -/

/-- The first layer's output as the body forms it from its loads: three products into zero added in order, then the bias row. -/
def pre (v0 v2 v4 : Vec Ideal S4096x128 .f32) (v9 v12 v15 : Vec Ideal S128x128 .f32) (v23 : Vec Ideal S128 .f32) :
    FVec Ideal S4096x128 .f32 :=
  addf (addf (addf
        (matmul dot_S4096x128_S128x128_S4096x128_1_0_0_1_n_n none (truncf .bf16 v0 bitsLt_bf16_f32) (truncf .bf16 v9 bitsLt_bf16_f32) (constant S4096x128 .f32 0x00000000#32))
        (matmul dot_S4096x128_S128x128_S4096x128_1_0_0_1_n_n none (truncf .bf16 v2 bitsLt_bf16_f32) (truncf .bf16 v12 bitsLt_bf16_f32) (constant S4096x128 .f32 0x00000000#32)))
      (matmul dot_S4096x128_S128x128_S4096x128_1_0_0_1_n_n none (truncf .bf16 v4 bitsLt_bf16_f32) (truncf .bf16 v15 bitsLt_bf16_f32) (constant S4096x128 .f32 0x00000000#32)))
    (broadcastTo S4096x128 (shapeCast S1x128 v23 shapeCasts_S128_S1x128) broadcasts_S1x128_S4096x128)

theorem pre_apply (v0 v2 v4 : Vec Ideal S4096x128 .f32) (v9 v12 v15 : Vec Ideal S128x128 .f32) (v23 : Vec Ideal S128 .f32) :
    pre v0 v2 v4 v9 v12 v15 v23 (ix2 p q)
      = hidden3 (fun k => v0 (ix2 p k)) (fun k => v2 (ix2 p k)) (fun k => v4 (ix2 p k))
          (fun k j => v9 (ix2 k j)) (fun k j => v12 (ix2 k j)) (fun k j => v15 (ix2 k j)) (fun j => v23 (ix1 j)) q := by
  unfold pre hidden3
  rw [addf_apply, addf_apply, addf_apply, mm_apply, mm_apply, mm_apply, row_apply]
  rfl

/-! ## The second layer -/

/-- The body's second-layer value is the second product of the activated first layer, plus the bias row. -/
theorem pay3_eq (v0 v2 v4 : Vec Ideal S4096x128 .f32) (v9 v12 v15 : Vec Ideal S128x128 .f32) (v23 : Vec Ideal S128 .f32)
    (v30 : Vec Ideal S128x128 .f32) (v33 : Vec Ideal S128 .f32) :
    k0_pay3 v0 v2 v4 v9 v12 v15 v23 v30 v33
      = addf (matmul dot_S4096x128_S128x128_S4096x128_1_0_0_1_n_n none
            (truncf .bf16 (mulf (pre v0 v2 v4 v9 v12 v15 v23) (logistic (pre v0 v2 v4 v9 v12 v15 v23))) bitsLt_bf16_f32)
            (truncf .bf16 v30 bitsLt_bf16_f32) (constant S4096x128 .f32 0x00000000#32))
          (broadcastTo S4096x128 (shapeCast S1x128 v33 shapeCasts_S128_S1x128) broadcasts_S1x128_S4096x128) := by
  unfold k0_pay3 k0_pay2 pre
  simp only [shapeCast_self]

theorem pay3_apply (v0 v2 v4 : Vec Ideal S4096x128 .f32) (v9 v12 v15 : Vec Ideal S128x128 .f32) (v23 : Vec Ideal S128 .f32)
    (v30 : Vec Ideal S128x128 .f32) (v33 : Vec Ideal S128 .f32) :
    k0_pay3 v0 v2 v4 v9 v12 v15 v23 v30 v33 (ix2 p q)
      = dense (fun k => silu (hidden3 (fun k' => v0 (ix2 p k')) (fun k' => v2 (ix2 p k')) (fun k' => v4 (ix2 p k'))
            (fun k' j => v9 (ix2 k' j)) (fun k' j => v12 (ix2 k' j)) (fun k' j => v15 (ix2 k' j)) (fun j => v23 (ix1 j)) k))
          (fun k j => v30 (ix2 k j)) (fun j => v33 (ix1 j)) q := by
  rw [pay3_eq, addf_apply, mm_apply, row_apply]
  unfold dense silu
  refine congrArg (· + _) (Finset.sum_congr rfl fun k _ => ?_)
  show pre v0 v2 v4 v9 v12 v15 v23 (ix2 p k) * Ideal.logistic (pre v0 v2 v4 v9 v12 v15 v23 (ix2 p k)) * v30 (ix2 k q) = _
  rw [pre_apply]

/-- The body's row sum of the second layer, at row p. -/
theorem pay4_apply (v0 v2 v4 : Vec Ideal S4096x128 .f32) (v9 v12 v15 : Vec Ideal S128x128 .f32) (v23 : Vec Ideal S128 .f32)
    (v30 : Vec Ideal S128x128 .f32) (v33 : Vec Ideal S128 .f32) :
    k0_pay4 v0 v2 v4 v9 v12 v15 v23 v30 v33 (ix1 p) = ∑ k : Fin 128, k0_pay3 v0 v2 v4 v9 v12 v15 v23 v30 v33 (ix2 p k) := by
  unfold k0_pay4
  exact rsum_apply p _

/-! ## The normalisation and the residual -/

/-- The second layer's block with each row's mean taken off, as the body forms it from the block and its row sums. -/
def centred (v36 : FVec Ideal S4096x128 .f32) (v37 : FVec Ideal S4096 .f32) : FVec Ideal S4096x128 .f32 :=
  subf v36 (broadcastTo S4096x128
    (divf (shapeCast S4096x1 v37 shapeCasts_S4096_S4096x1) (broadcast S4096x1 (Scalar.ofBits .f32 0x43000000#32)))
    broadcasts_S4096x1_S4096x128)

theorem centred_apply (v36 : FVec Ideal S4096x128 .f32) (v37 : FVec Ideal S4096 .f32)
    (h37 : v37 (ix1 p) = ∑ k : Fin 128, v36 (ix2 p k)) :
    centred v36 v37 (ix2 p q) = v36 (ix2 p q) - mean (fun k => v36 (ix2 p k)) := by
  unfold centred mean
  rw [subf_apply, spread_apply, divf_apply, col_apply, h37]
  rfl

/-- The body's stored value: the centred block times the spread reciprocal root of the row variance plus the offset,
    scaled, shifted, plus the edge block. -/
theorem pay1_eq (v1 v36 : FVec Ideal S4096x128 .f32) (v37 : FVec Ideal S4096 .f32) (v55 v59 : Vec Ideal S128 .f32) :
    k0_pay1 v1 v36 v37 v55 v59
      = addf (addf (mulf (mulf (centred v36 v37)
            (broadcastTo S4096x128 (rsqrt (addf
              (divf (shapeCast S4096x1
                  (multiReduction .add [1] S4096 (mulf (centred v36 v37) (centred v36 v37)) 0x00000000#32 reduces_S4096x128_S4096 (.inl rfl) rfl)
                  shapeCasts_S4096_S4096x1)
                (broadcast S4096x1 (Scalar.ofBits .f32 0x43000000#32)))
              (broadcast S4096x1 (Scalar.ofBits .f32 0x3727C5AC#32)))) broadcasts_S4096x1_S4096x128))
          (broadcastTo S4096x128 (shapeCast S1x128 v55 shapeCasts_S128_S1x128) broadcasts_S1x128_S4096x128))
          (broadcastTo S4096x128 (shapeCast S1x128 v59 shapeCasts_S128_S1x128) broadcasts_S1x128_S4096x128)) v1 := rfl

theorem pay1_apply (v1 v36 : FVec Ideal S4096x128 .f32) (v37 : FVec Ideal S4096 .f32) (v55 v59 : Vec Ideal S128 .f32)
    (h37 : v37 (ix1 p) = ∑ k : Fin 128, v36 (ix2 p k)) :
    k0_pay1 v1 v36 v37 v55 v59 (ix2 p q)
      = normRes (fun k => v36 (ix2 p k)) (fun k => v1 (ix2 p k)) (fun j => v55 (ix1 j)) (fun j => v59 (ix1 j)) q := by
  have hs : (∑ k : Fin 128, mulf (centred v36 v37) (centred v36 v37) (ix2 p k))
      = ∑ k : Fin 128, (v36 (ix2 p k) - mean (fun k => v36 (ix2 p k))) * (v36 (ix2 p k) - mean (fun k => v36 (ix2 p k))) :=
    Finset.sum_congr rfl fun k _ => by rw [mulf_apply, centred_apply p k v36 v37 h37]
  rw [pay1_eq, addf_apply, addf_apply, row_apply, mulf_apply, row_apply, mulf_apply, centred_apply p q v36 v37 h37,
    spread_apply, rsqrt_apply, addf_apply, divf_apply, col_apply, rsum_apply, hs]
  rfl

/-! ## One block -/

/-- Entry by entry, the block the body stores is the edge function of the rows of the blocks it loads. -/
theorem block_eq (x0 x1 x2 : Vec Ideal S4096x128 .f32) (x3 x4 x5 : Vec Ideal S128x128 .f32) (x6 : Vec Ideal S128 .f32)
    (x7 : Vec Ideal S128x128 .f32) (x8 x9 x10 : Vec Ideal S128 .f32) :
    k0_pay1 (k0_pay2 x0) (k0_pay3 x0 x1 x2 x3 x4 x5 x6 x7 x8) (k0_pay4 x0 x1 x2 x3 x4 x5 x6 x7 x8) x9 x10
      = rowsOut 4096 x0 x1 x2 x3 x4 x5 x7 x6 x8 x9 x10 := by
  funext j
  obtain ⟨p, q, rfl⟩ : ∃ (p : Fin 4096) (q : Fin 128), j = ix2 p q := ⟨j 0, j 1, eq_ix2 j⟩
  rw [pay1_apply p q _ _ _ _ _ (pay4_apply p _ _ _ _ _ _ _ _ _)]
  simp only [pay3_apply]
  unfold k0_pay2
  simp only [shapeCast_self]
  rfl

end Cert.KernelIdeal.Block

end
-- ==== Proof.KernelArray.lean ====
/-
  From the blocks to the array, and from the array to the result.

  The grid has 123 steps; step t loads rows 4096·t … 4096·t + 4095 of the three padded row arrays and the whole of
  every weight and vector, and writes the same rows of the [503808, 128] output. Since the body is row-local, what
  step t writes is the block of ONE array, the edge function applied to every row of the padded arrays (`padded`):
  row p of the block is row 4096·t + p of the array (`flushed_eq`). The 123 blocks tile the output (`cover`), so after
  the run the output IS that array (`final`). The host lines before the call pad the edge array and the two gathered
  arrays with 3808 rows at the end and cut the first weight into its three 128-row slabs; the line after it keeps the
  first 500000 rows. A kept row of a padded array is the row of the array padded, so the kept rows are the edge function
  on every row of the unpadded arrays (`result_eq`); the padding value never enters.
-/
import proofs.«106251_j79156247265436_1_alg».proof.Proof.Gen.KernelIdeal.Frame
import proofs.«106251_j79156247265436_1_alg».proof.Proof.KernelBlock
import Idealize.ShloMosaic.Lib.Pipeline.Value
import Idealize.ShloMosaic.Lib.KernelVsHost
import Idealize.ShloMosaic.Lib.ValueLayout
import Idealize.ShloMosaic.Lib.StableHlo.Run

set_option maxRecDepth 16384

noncomputable section

namespace Cert.KernelIdeal.Arr

open Idealize.ShloMosaic Idealize.ShloMosaic.TcCoe Idealize.ShloMosaic.ValueIdx Idealize.SL.Sem
open Cert.KernelIdeal Cert.KernelIdeal.Gen Cert.EdgeRow
open Idealize.ShloMosaic.Pipeline (Dat Cfg Window)

variable (m : (ℓ : Loc nD τ sig) → Buf (Elt Ideal) ℓ) (ρ : Dev nD → PrngReg)

theorem hz : (![0, 0] : Fin 2 → Nat) = fun _ => 0 := funext fun a => by fin_cases a <;> rfl
theorem hz1 : (![0] : Fin 1 → Nat) = fun _ => 0 := funext fun a => by fin_cases a <;> rfl

/-! ## The index maps, decided over the grid -/

/-- The three row windows and the output window sit at block (t, 0) at step t. -/
theorem idx_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_11.index t (0 : Fin 2) = t.val ∧ win0_11.index t (1 : Fin 2) = 0 :=
  (by decide +kernel : ∀ t : Fin grid0.N, _)

/-- The weights and the vectors are one block each, at every step. -/
theorem idx_whole : ∀ t : Fin cfg0.N,
    win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 1) = 0 ∧ win0_9.index t (0 : Fin 1) = 0 ∧ win0_10.index t (0 : Fin 1) = 0 :=
  (by decide +kernel : ∀ t : Fin grid0.N, _)

/-! ## The arrays the region finds, and its blocks, at their literal shapes -/

abbrev Earr (c : Dev nD) : FVec Ideal S503808x128 .f32 := V m c main_v14
abbrev Sarr (c : Dev nD) : FVec Ideal S503808x128 .f32 := V m c main_v15
abbrev Darr (c : Dev nD) : FVec Ideal S503808x128 .f32 := V m c main_v16
abbrev Aarr (c : Dev nD) : FVec Ideal S128x128 .f32 := V m c main_v17
abbrev Barr (c : Dev nD) : FVec Ideal S128x128 .f32 := V m c main_v18
abbrev Carr (c : Dev nD) : FVec Ideal S128x128 .f32 := V m c main_v19
abbrev b1arr (c : Dev nD) : FVec Ideal S128 .f32 := V m c main_arg5
abbrev W2arr (c : Dev nD) : FVec Ideal S128x128 .f32 := V m c main_arg6
abbrev b2arr (c : Dev nD) : FVec Ideal S128 .f32 := V m c main_arg7
abbrev garr (c : Dev nD) : FVec Ideal S128 .f32 := V m c main_arg8
abbrev betarr (c : Dev nD) : FVec Ideal S128 .f32 := V m c main_arg9

abbrev eblk (c : Dev nD) (t : Fin cfg0.N) : Vec Ideal S4096x128 .f32 := iblk m c 0 t
abbrev sblk (c : Dev nD) (t : Fin cfg0.N) : Vec Ideal S4096x128 .f32 := iblk m c 1 t
abbrev dblk (c : Dev nD) (t : Fin cfg0.N) : Vec Ideal S4096x128 .f32 := iblk m c 2 t
abbrev ablk (c : Dev nD) (t : Fin cfg0.N) : Vec Ideal S128x128 .f32 := iblk m c 3 t
abbrev bblk (c : Dev nD) (t : Fin cfg0.N) : Vec Ideal S128x128 .f32 := iblk m c 4 t
abbrev cblk (c : Dev nD) (t : Fin cfg0.N) : Vec Ideal S128x128 .f32 := iblk m c 5 t
abbrev b1blk (c : Dev nD) (t : Fin cfg0.N) : Vec Ideal S128 .f32 := iblk m c 6 t
abbrev w2blk (c : Dev nD) (t : Fin cfg0.N) : Vec Ideal S128x128 .f32 := iblk m c 7 t
abbrev b2blk (c : Dev nD) (t : Fin cfg0.N) : Vec Ideal S128 .f32 := iblk m c 8 t
abbrev gblk (c : Dev nD) (t : Fin cfg0.N) : Vec Ideal S128 .f32 := iblk m c 9 t
abbrev betblk (c : Dev nD) (t : Fin cfg0.N) : Vec Ideal S128 .f32 := iblk m c 10 t

/-- The edge function on every row of the padded arrays. -/
def padded (c : Dev nD) : FVec Ideal S503808x128 .f32 :=
  rowsOut 503808 (Earr m c) (Sarr m c) (Darr m c) (Aarr m c) (Barr m c) (Carr m c) (W2arr m c) (b1arr m c) (b2arr m c)
    (garr m c) (betarr m c)

/-- Row p of step t's blocks is row 4096·t + p of the arrays. -/
def rowOf (t : Fin cfg0.N) (p : Fin 4096) : Fin 503808 := ⟨t.val * 4096 + p.val, by
  have ht : t.val < 123 := Nat.lt_of_lt_of_eq t.isLt (N_0 : cfg0.N = 123)
  have := p.isLt; omega⟩

/-! ## Each block is the array read where the step's rectangle says -/

theorem eblk_apply (c : Dev nD) (t : Fin cfg0.N) (p : Fin 4096) (k : Fin 128) :
    eblk m c t (ix2 p k) = Earr m c (ix2 (rowOf t p) k) := by
  obtain ⟨e0, e1, -⟩ := idx_rows t
  show V m c main_v14 (((cfg0.win 0).blk t).view.emb (ix2 p k)) = V m c main_v14 (ix2 (rowOf t p) k)
  have h : ((cfg0.win 0).blk t).view.emb (ix2 p k) = ix2 (rowOf t p) k := by
    funext a; apply Fin.ext
    match a with
    | ⟨0, _⟩ => show win0_0.index t (0 : Fin 2) * 4096 + 1 * p.val = t.val * 4096 + p.val; omega
    | ⟨1, _⟩ => show win0_0.index t (1 : Fin 2) * 128 + 1 * k.val = k.val; omega
  rw [h]

theorem sblk_apply (c : Dev nD) (t : Fin cfg0.N) (p : Fin 4096) (k : Fin 128) :
    sblk m c t (ix2 p k) = Sarr m c (ix2 (rowOf t p) k) := by
  obtain ⟨-, -, e0, e1, -⟩ := idx_rows t
  show V m c main_v15 (((cfg0.win 1).blk t).view.emb (ix2 p k)) = V m c main_v15 (ix2 (rowOf t p) k)
  have h : ((cfg0.win 1).blk t).view.emb (ix2 p k) = ix2 (rowOf t p) k := by
    funext a; apply Fin.ext
    match a with
    | ⟨0, _⟩ => show win0_1.index t (0 : Fin 2) * 4096 + 1 * p.val = t.val * 4096 + p.val; omega
    | ⟨1, _⟩ => show win0_1.index t (1 : Fin 2) * 128 + 1 * k.val = k.val; omega
  rw [h]

theorem dblk_apply (c : Dev nD) (t : Fin cfg0.N) (p : Fin 4096) (k : Fin 128) :
    dblk m c t (ix2 p k) = Darr m c (ix2 (rowOf t p) k) := by
  obtain ⟨-, -, -, -, e0, e1, -⟩ := idx_rows t
  show V m c main_v16 (((cfg0.win 2).blk t).view.emb (ix2 p k)) = V m c main_v16 (ix2 (rowOf t p) k)
  have h : ((cfg0.win 2).blk t).view.emb (ix2 p k) = ix2 (rowOf t p) k := by
    funext a; apply Fin.ext
    match a with
    | ⟨0, _⟩ => show win0_2.index t (0 : Fin 2) * 4096 + 1 * p.val = t.val * 4096 + p.val; omega
    | ⟨1, _⟩ => show win0_2.index t (1 : Fin 2) * 128 + 1 * k.val = k.val; omega
  rw [h]

theorem ablk_eq (c : Dev nD) (t : Fin cfg0.N) : ablk m c t = Aarr m c := by
  obtain ⟨e0, e1, -⟩ := idx_whole t
  funext y
  show V m c main_v17 (((cfg0.win 3).blk t).view.emb y) = V m c main_v17 y
  have h : ((cfg0.win 3).blk t).view.emb y = y := by
    funext a; apply Fin.ext
    match a with
    | ⟨0, _⟩ => show win0_3.index t (0 : Fin 2) * 128 + 1 * (y 0).val = (y 0).val; omega
    | ⟨1, _⟩ => show win0_3.index t (1 : Fin 2) * 128 + 1 * (y 1).val = (y 1).val; omega
  rw [h]

theorem bblk_eq (c : Dev nD) (t : Fin cfg0.N) : bblk m c t = Barr m c := by
  obtain ⟨-, -, e0, e1, -⟩ := idx_whole t
  funext y
  show V m c main_v18 (((cfg0.win 4).blk t).view.emb y) = V m c main_v18 y
  have h : ((cfg0.win 4).blk t).view.emb y = y := by
    funext a; apply Fin.ext
    match a with
    | ⟨0, _⟩ => show win0_4.index t (0 : Fin 2) * 128 + 1 * (y 0).val = (y 0).val; omega
    | ⟨1, _⟩ => show win0_4.index t (1 : Fin 2) * 128 + 1 * (y 1).val = (y 1).val; omega
  rw [h]

theorem cblk_eq (c : Dev nD) (t : Fin cfg0.N) : cblk m c t = Carr m c := by
  obtain ⟨-, -, -, -, e0, e1, -⟩ := idx_whole t
  funext y
  show V m c main_v19 (((cfg0.win 5).blk t).view.emb y) = V m c main_v19 y
  have h : ((cfg0.win 5).blk t).view.emb y = y := by
    funext a; apply Fin.ext
    match a with
    | ⟨0, _⟩ => show win0_5.index t (0 : Fin 2) * 128 + 1 * (y 0).val = (y 0).val; omega
    | ⟨1, _⟩ => show win0_5.index t (1 : Fin 2) * 128 + 1 * (y 1).val = (y 1).val; omega
  rw [h]

theorem b1blk_eq (c : Dev nD) (t : Fin cfg0.N) : b1blk m c t = b1arr m c := by
  obtain ⟨-, -, -, -, -, -, e0, -⟩ := idx_whole t
  funext y
  show V m c main_arg5 (((cfg0.win 6).blk t).view.emb y) = V m c main_arg5 y
  have h : ((cfg0.win 6).blk t).view.emb y = y := by
    funext a; apply Fin.ext
    match a with
    | ⟨0, _⟩ => show win0_6.index t (0 : Fin 1) * 128 + 1 * (y 0).val = (y 0).val; omega
  rw [h]

theorem w2blk_eq (c : Dev nD) (t : Fin cfg0.N) : w2blk m c t = W2arr m c := by
  obtain ⟨-, -, -, -, -, -, -, e0, e1, -⟩ := idx_whole t
  funext y
  show V m c main_arg6 (((cfg0.win 7).blk t).view.emb y) = V m c main_arg6 y
  have h : ((cfg0.win 7).blk t).view.emb y = y := by
    funext a; apply Fin.ext
    match a with
    | ⟨0, _⟩ => show win0_7.index t (0 : Fin 2) * 128 + 1 * (y 0).val = (y 0).val; omega
    | ⟨1, _⟩ => show win0_7.index t (1 : Fin 2) * 128 + 1 * (y 1).val = (y 1).val; omega
  rw [h]

theorem b2blk_eq (c : Dev nD) (t : Fin cfg0.N) : b2blk m c t = b2arr m c := by
  obtain ⟨-, -, -, -, -, -, -, -, -, e0, -⟩ := idx_whole t
  funext y
  show V m c main_arg7 (((cfg0.win 8).blk t).view.emb y) = V m c main_arg7 y
  have h : ((cfg0.win 8).blk t).view.emb y = y := by
    funext a; apply Fin.ext
    match a with
    | ⟨0, _⟩ => show win0_8.index t (0 : Fin 1) * 128 + 1 * (y 0).val = (y 0).val; omega
  rw [h]

theorem gblk_eq (c : Dev nD) (t : Fin cfg0.N) : gblk m c t = garr m c := by
  obtain ⟨-, -, -, -, -, -, -, -, -, -, e0, -⟩ := idx_whole t
  funext y
  show V m c main_arg8 (((cfg0.win 9).blk t).view.emb y) = V m c main_arg8 y
  have h : ((cfg0.win 9).blk t).view.emb y = y := by
    funext a; apply Fin.ext
    match a with
    | ⟨0, _⟩ => show win0_9.index t (0 : Fin 1) * 128 + 1 * (y 0).val = (y 0).val; omega
  rw [h]

theorem betblk_eq (c : Dev nD) (t : Fin cfg0.N) : betblk m c t = betarr m c := by
  obtain ⟨-, -, -, -, -, -, -, -, -, -, -, e0⟩ := idx_whole t
  funext y
  show V m c main_arg9 (((cfg0.win 10).blk t).view.emb y) = V m c main_arg9 y
  have h : ((cfg0.win 10).blk t).view.emb y = y := by
    funext a; apply Fin.ext
    match a with
    | ⟨0, _⟩ => show win0_10.index t (0 : Fin 1) * 128 + 1 * (y 0).val = (y 0).val; omega
  rw [h]

/-! ## What a step writes back -/

/-- Row p, column q of the output's block at step t is entry (4096·t + p, q) of the array. -/
theorem emb_out (t : Fin cfg0.N) (p : Fin 4096) (q : Fin 128) :
    ((cfg0.win 11).blk t).view.emb (ix2 p q) = ix2 (rowOf t p) q := by
  obtain ⟨-, -, -, -, -, -, e0, e1⟩ := idx_rows t
  funext a; apply Fin.ext
  match a with
  | ⟨0, _⟩ => show win0_11.index t (0 : Fin 2) * 4096 + 1 * p.val = t.val * 4096 + p.val; omega
  | ⟨1, _⟩ => show win0_11.index t (1 : Fin 2) * 128 + 1 * q.val = q.val; omega

/-- WHAT STEP t WRITES BACK is block t of the edge function on every row of the padded arrays. -/
theorem flushed_eq (c : Dev nD) (t : Fin cfg0.N) :
    (dats m 0 c).flushed 11 t = ((cfg0.win 11).blk t).view.read (Elt Ideal) (padded m c) := by
  show (cfg0.win 11).cut (grid0.coords t) ((dats m 0 c).after 11 t) = _
  rw [after0_11]
  unfold out0_11
  rw [View.canon_unit_zero hz]
  simp only [View.ld_unit_zero (S := S4096x128) hz, View.ld_unit_zero (S := S128x128) hz, View.ld_unit_zero (S := S128) hz1]
  rw [Block.block_eq]
  funext j
  obtain ⟨p, q, rfl⟩ : ∃ (p : Fin 4096) (q : Fin 128), j = ix2 p q := ⟨j 0, j 1, eq_ix2 j⟩
  show rowsOut 4096 (eblk m c t) (sblk m c t) (dblk m c t) (ablk m c t) (bblk m c t) (cblk m c t) (w2blk m c t) (b1blk m c t)
      (b2blk m c t) (gblk m c t) (betblk m c t) (ix2 p q)
    = padded m c (((cfg0.win 11).blk t).view.emb (ix2 p q))
  rw [emb_out, ablk_eq, bblk_eq, cblk_eq, w2blk_eq, b1blk_eq, b2blk_eq, gblk_eq, betblk_eq]
  exact rowsOut_row _ _ _ _ _ _ _ _ _ _ _ _ _ _ p (rowOf t p) (eblk_apply m c t p) (sblk_apply m c t p) (dblk_apply m c t p) q

/-! ## The blocks tile the output -/

theorem mem_blk (t : Fin cfg0.N) (i : S503808x128.Idx) :
    i ∈ ((cfg0.win 11).blk t).view.set ↔ ∀ a : Fin 2, win0_11.index t a * S4096x128.size a ≤ (i a).val
      ∧ (i a).val < win0_11.index t a * S4096x128.size a + S4096x128.size a := by
  show i ∈ ((View.whole main_v20).slice (win0_11.rect t)).set ↔ _
  rw [View.set_slice_whole, Rect.mem_set_unit]
  exact Iff.rfl

/-- Row r lies in the block of step r / 4096. -/
theorem cover (i : S503808x128.Idx) :
    ∃ t : Fin cfg0.N, (cfg0.win 11).flush t = true ∧ i ∈ ((cfg0.win 11).blk t).view.set := by
  have hi0 : (i 0).val < 503808 := (i 0).isLt
  have hi1 : (i 1).val < 128 := (i 1).isLt
  have hN : cfg0.N = 123 := N_0
  have ht : (i 0).val / 4096 < cfg0.N := by rw [hN]; omega
  obtain ⟨-, -, -, -, -, -, e0, e1⟩ := idx_rows ⟨(i 0).val / 4096, ht⟩
  refine ⟨⟨(i 0).val / 4096, ht⟩, flush0_11 _, ?_⟩
  rw [mem_blk]
  intro a
  match a with
  | ⟨0, _⟩ =>
    show win0_11.index ⟨(i 0).val / 4096, ht⟩ (0 : Fin 2) * 4096 ≤ (i 0).val
      ∧ (i 0).val < win0_11.index ⟨(i 0).val / 4096, ht⟩ (0 : Fin 2) * 4096 + 4096
    rw [e0]
    show (i 0).val / 4096 * 4096 ≤ (i 0).val ∧ (i 0).val < (i 0).val / 4096 * 4096 + 4096
    omega
  | ⟨1, _⟩ =>
    show win0_11.index ⟨(i 0).val / 4096, ht⟩ (1 : Fin 2) * 128 ≤ (i 1).val
      ∧ (i 1).val < win0_11.index ⟨(i 0).val / 4096, ht⟩ (1 : Fin 2) * 128 + 128
    omega

/-- THE OUTPUT ARRAY after the run. -/
theorem final (c : Dev nD) : (dats m 0 c).arrAt 11 cfg0.N = padded m c :=
  (dats m 0 c).arrAt_eq_of_cover 11 (padded m c) (fun t _ => flushed_eq m c t) cover

end Cert.KernelIdeal.Arr

end
-- ==== Proof.KernelHost.lean ====
/-
  The host lines around the call, and the kernel program's run.

  Before the call the host wraps negative node indices by the table's height and gathers the node rows, pads the
  edge array and the two gathered arrays with 3808 rows, and cuts the first weight into three 128-row slabs; after it,
  it keeps the first 500000 rows of the call's output. A kept row of a padded array is that row of the array that was
  padded (`padRows_row`), whatever the padding value, so the kept rows of the call's output are the edge function on
  every row of the unpadded arrays (`result_eq`), and that is what @main returns (`run`).
-/
import proofs.«106251_j79156247265436_1_alg».proof.Proof.KernelArray
import Idealize.ShloMosaic.Lib.Pipeline.Value
import Idealize.ShloMosaic.Lib.KernelVsHost
import Idealize.ShloMosaic.Lib.ValueLayout
import Idealize.ShloMosaic.Lib.StableHlo.Run

set_option maxRecDepth 16384

noncomputable section

namespace Cert.KernelIdeal.Glue

open Idealize.ShloMosaic Idealize.ShloMosaic.TcCoe Idealize.ShloMosaic.ValueIdx Idealize.SL.Sem Idealize.ShloMosaic.StableHlo
open Cert.KernelIdeal Cert.KernelIdeal.Gen Cert.KernelIdeal.Arr Cert.EdgeRow
open Idealize.ShloMosaic.Pipeline (Dat Cfg Window)

variable (m : (ℓ : Loc nD τ sig) → Buf (Elt Ideal) ℓ) (ρ : Dev nD → PrngReg)

/-! ## The host's terms -/

/-- The node rows of the indexed nodes: an index below zero is wrapped by the table's height first. -/
def gath (nf : FVec Ideal S100000x128 .f32) (ix : IVec S500000 32) : FVec Ideal S500000x128 .f32 :=
  Host.gather gather_S100000x128_S500000x1_S500000x128_1_0_n_n_0_1_1128 nf
    (broadcastInDim S500000x1 ![0] bcast_S500000_S500000x1_0
      (select (cmpi .slt ix (broadcastInDim S500000 ![] bcast_S_S500000 (constantI S_ 32 0#32)))
        (addi ix (broadcastInDim S500000 ![] bcast_S_S500000 (constantI S_ 32 100000#32))) ix))

/-- An array padded with 3808 rows of a value at the end. -/
def padRows (x : FVec Ideal S500000x128 .f32) (v : FVec Ideal S_ .f32) : FVec Ideal S503808x128 .f32 :=
  pad S503808x128 ![0, 0] ![3808, 0] ![0, 0] x v pads_S500000x128_S503808x128_038080_000 h_S_

/-- The padding value the host uses: the integer zero converted. -/
abbrev zeroPad : FVec Ideal S_ .f32 := sitofp .f32 (constantI S_ 32 0#32)

/-- Row r < 500000 of the padded array is row r of the array. -/
theorem padRows_row (x : FVec Ideal S500000x128 .f32) (v : FVec Ideal S_ .f32) (r : Fin 500000) (k : Fin 128) :
    padRows x v (ix2 (⟨r.val, by omega⟩ : Fin 503808) k) = x (ix2 r k) := by
  unfold padRows
  exact pad_apply_of_inside ![0, 0] ![3808, 0] ![0, 0] x v _ _ (ix2 (⟨r.val, by omega⟩ : Fin 503808) k) (ix2 r k) (fun a => by
    match a with
    | ⟨0, _⟩ => show r.val = 0 + r.val * (0 + 1); omega
    | ⟨1, _⟩ => show k.val = 0 + k.val * (0 + 1); omega)

/-! ## What the region finds -/

theorem Earr_eq (c : Dev nD) : Earr m c = padRows (m ((c : Thread nD τ).loc main_arg0)) zeroPad := by
  show V m c main_v14 = _
  dsimp only [V, V0]
  simp only [hostOps0, hostOps0_1, hostOps0_2, hostOps0_3, hostOps0_4, hostOps0_5, hostOps0_6, List.flatten_cons, List.flatten_nil,
    List.append_nil, List.cons_append, List.nil_append]
  after_results <;> rfl

theorem Sarr_eq (c : Dev nD) : Sarr m c = padRows (gath (m ((c : Thread nD τ).loc main_arg1)) (m ((c : Thread nD τ).loc main_arg2))) zeroPad := by
  show V m c main_v15 = _
  dsimp only [V, V0]
  simp only [hostOps0, hostOps0_1, hostOps0_2, hostOps0_3, hostOps0_4, hostOps0_5, hostOps0_6, List.flatten_cons, List.flatten_nil,
    List.append_nil, List.cons_append, List.nil_append]
  after_results <;> rfl

set_option maxHeartbeats 1000000 in
theorem Darr_eq (c : Dev nD) : Darr m c = padRows (gath (m ((c : Thread nD τ).loc main_arg1)) (m ((c : Thread nD τ).loc main_arg3))) zeroPad := by
  show V m c main_v16 = _
  dsimp only [V, V0]
  simp only [hostOps0, hostOps0_1, hostOps0_2, hostOps0_3, hostOps0_4, hostOps0_5, hostOps0_6, List.flatten_cons, List.flatten_nil,
    List.append_nil, List.cons_append, List.nil_append]
  after_results <;> rfl

theorem Aarr_eq (c : Dev nD) : Aarr m c = extractStridedSlice S128x128 ![0, 0] (m ((c : Thread nD τ).loc main_arg4)) slices_S384x128_S128x128_0_0 := by
  show V m c main_v17 = _
  dsimp only [V, V0]
  simp only [hostOps0, hostOps0_1, hostOps0_2, hostOps0_3, hostOps0_4, hostOps0_5, hostOps0_6, List.flatten_cons, List.flatten_nil,
    List.append_nil, List.cons_append, List.nil_append]
  after_results <;> rfl

theorem Barr_eq (c : Dev nD) : Barr m c = extractStridedSlice S128x128 ![128, 0] (m ((c : Thread nD τ).loc main_arg4)) slices_S384x128_S128x128_128_0 := by
  show V m c main_v18 = _
  dsimp only [V, V0]
  simp only [hostOps0, hostOps0_1, hostOps0_2, hostOps0_3, hostOps0_4, hostOps0_5, hostOps0_6, List.flatten_cons, List.flatten_nil,
    List.append_nil, List.cons_append, List.nil_append]
  after_results <;> rfl

theorem Carr_eq (c : Dev nD) : Carr m c = extractStridedSlice S128x128 ![256, 0] (m ((c : Thread nD τ).loc main_arg4)) slices_S384x128_S128x128_256_0 := by
  show V m c main_v19 = _
  dsimp only [V, V0]
  simp only [hostOps0, hostOps0_1, hostOps0_2, hostOps0_3, hostOps0_4, hostOps0_5, hostOps0_6, List.flatten_cons, List.flatten_nil,
    List.append_nil, List.cons_append, List.nil_append]
  after_results <;> rfl

theorem b1arr_eq (c : Dev nD) : b1arr m c = (m ((c : Thread nD τ).loc main_arg5)) := V_main_arg5 m c
theorem W2arr_eq (c : Dev nD) : W2arr m c = (m ((c : Thread nD τ).loc main_arg6)) := V_main_arg6 m c
theorem b2arr_eq (c : Dev nD) : b2arr m c = (m ((c : Thread nD τ).loc main_arg7)) := V_main_arg7 m c
theorem garr_eq (c : Dev nD) : garr m c = (m ((c : Thread nD τ).loc main_arg8)) := V_main_arg8 m c
theorem betarr_eq (c : Dev nD) : betarr m c = (m ((c : Thread nD τ).loc main_arg9)) := V_main_arg9 m c

/-! ## The result -/

/-- What @main returns: the edge function on every row of the edge array and the two gathered arrays. -/
def result (c : Dev nD) : FVec Ideal S500000x128 .f32 :=
  rowsOut 500000 (m ((c : Thread nD τ).loc main_arg0)) (gath (m ((c : Thread nD τ).loc main_arg1)) (m ((c : Thread nD τ).loc main_arg2))) (gath (m ((c : Thread nD τ).loc main_arg1)) (m ((c : Thread nD τ).loc main_arg3)))
    (extractStridedSlice S128x128 ![0, 0] (m ((c : Thread nD τ).loc main_arg4)) slices_S384x128_S128x128_0_0)
    (extractStridedSlice S128x128 ![128, 0] (m ((c : Thread nD τ).loc main_arg4)) slices_S384x128_S128x128_128_0)
    (extractStridedSlice S128x128 ![256, 0] (m ((c : Thread nD τ).loc main_arg4)) slices_S384x128_S128x128_256_0)
    (m ((c : Thread nD τ).loc main_arg6)) (m ((c : Thread nD τ).loc main_arg5)) (m ((c : Thread nD τ).loc main_arg7)) (m ((c : Thread nD τ).loc main_arg8)) (m ((c : Thread nD τ).loc main_arg9))

/-- The first 500000 rows of the padded result are the result. -/
theorem result_eq (c : Dev nD) :
    extractStridedSlice S500000x128 ![0, 0] (padded m c) slices_S503808x128_S500000x128_0_0 = result m c := by
  funext i
  obtain ⟨r, q, rfl⟩ : ∃ (r : Fin 500000) (q : Fin 128), i = ix2 r q := ⟨i 0, i 1, eq_ix2 i⟩
  rw [slice2_axis0_apply 0 (padded m c) _ r q (⟨r.val, by omega⟩ : Fin 503808) (Nat.zero_add _).symm]
  unfold padded result
  rw [Aarr_eq, Barr_eq, Carr_eq, b1arr_eq, W2arr_eq, b2arr_eq, garr_eq, betarr_eq]
  exact rowsOut_row _ _ _ _ _ _ _ _ _ _ _ _ _ _ _ r
    (fun k => by rw [Earr_eq]; exact padRows_row _ _ r k) (fun k => by rw [Sarr_eq]; exact padRows_row _ _ r k)
    (fun k => by rw [Darr_eq]; exact padRows_row _ _ r k) q

/-- The line after the region leaves the result in @main's result buffer. -/
theorem tail_eq (c : Dev nD) :
    Pipeline.afterTail₀ cfgs (dats m) 0 (V0 m) [hostOps1] c main_v21 = result m c := by
  unfold Pipeline.afterTail₀
  show StableHlo.after hostOps1 _ (Proc.devRef .tc main_v21) = _
  after_results
  have hw : Pipeline.withArrays (cfgs 0).spec c (V0 m c) (fun w => (dats m 0 c).arrAt w (cfgs 0).N) (Proc.devRef .tc main_v20)
      = padded m c := (Pipeline.withArrays_arr spec0 launch0.win.arr_inj c _ _ 11).trans (final m c)
  rw [hw]
  exact result_eq m c

/-! ## The run -/

/-- Every weakly fair execution of the kernel program terminates with the result buffer at the edge function on every
    row of the edge array and the two gathered arrays, the node array and every argument as launched: the generated
    frame run, its output array named (`final`) and the line after the region read (`tail_eq`). -/
theorem run : θ_run defs (onTc (τ := τ) (main (F := Ideal))) ⟨m, fun _ => 0, ρ⟩ (fun r => ∀ c : Dev nD,
      r.2.mem ((c.tc : Thread nD τ).loc main_v21) = result m c
      ∧ r.2.mem ((c.tc : Thread nD τ).loc main_arg1) = m ((c.tc : Thread nD τ).loc main_arg1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨
      ((h c).2 main_v21 (Pipeline.mem_restRefs_of main_v21 (by decide) (by decide))).trans (tail_eq m c),
      ((h c).2 main_arg1 (Pipeline.mem_restRefs_of main_arg1 (by decide) (by decide))).trans (W_main_arg1 m (dats m) c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).1 6).trans (((dats m 0 c).arrAt_in 6 rfl _).trans ((A_eq m c 6).trans (V_main_arg5 m c))),
      ((h c).1 7).trans (((dats m 0 c).arrAt_in 7 rfl _).trans ((A_eq m c 7).trans (V_main_arg6 m c))),
      ((h c).1 8).trans (((dats m 0 c).arrAt_in 8 rfl _).trans ((A_eq m c 8).trans (V_main_arg7 m c))),
      ((h c).1 9).trans (((dats m 0 c).arrAt_in 9 rfl _).trans ((A_eq m c 9).trans (V_main_arg8 m c))),
      ((h c).1 10).trans (((dats m 0 c).arrAt_in 10 rfl _).trans ((A_eq m c 10).trans (V_main_arg9 m c)))⟩)
    (run_main m ρ)

/-! ## The first weight's slabs -/

theorem slab0 (x4 : FVec Ideal S384x128 .f32) (k j : Fin 128) :
    x4 (ix2 (⟨k.val, by omega⟩ : Fin 384) j) = extractStridedSlice S128x128 ![0, 0] x4 slices_S384x128_S128x128_0_0 (ix2 k j) :=
  (slice2_axis0_apply 0 x4 _ k j _ (Nat.zero_add _).symm).symm
theorem slab1 (x4 : FVec Ideal S384x128 .f32) (k j : Fin 128) :
    x4 (ix2 (⟨128 + k.val, by omega⟩ : Fin 384) j) = extractStridedSlice S128x128 ![128, 0] x4 slices_S384x128_S128x128_128_0 (ix2 k j) :=
  (slice2_axis0_apply 128 x4 _ k j _ rfl).symm
theorem slab2 (x4 : FVec Ideal S384x128 .f32) (k j : Fin 128) :
    x4 (ix2 (⟨256 + k.val, by omega⟩ : Fin 384) j) = extractStridedSlice S128x128 ![256, 0] x4 slices_S384x128_S128x128_256_0 (ix2 k j) :=
  (slice2_axis0_apply 256 x4 _ k j _ rfl).symm

end Cert.KernelIdeal.Glue

end
-- ==== Proof.LibHostRows.lean ====
/-
  Row-wise readings of the host program's operations, at an index written with the coordinate constructors: a plain
  `dot_general` at `(p, q)` is the sum over the contracted coordinate; a sum (a maximum) over the second axis at row `p`
  is the initial value plus the row's sum (the fold of `max` from the initial value over the row); and the
  `broadcast_in_dim` forms a keepdims reduction and a bias need: a scalar spread over any shape, a vector made a column
  or a row, a column or a row spread over a matrix.
-/
import proofs.«106251_j79156247265436_1_alg».proof.Proof.LibRowOps
import Idealize.ShloMosaic.Lib.Pipeline.Value

namespace Cert.LibHostRows

open Idealize.ShloMosaic Idealize.ShloMosaic.ValueIdx

/-! ## The host's pointwise operations -/

section Pointwise
variable {s : Shape} {φ : FTy}

theorem hostDivf_apply (x y : FVec Ideal s φ) (i : s.Idx) : Host.divf x y i = Ideal.div (x i) (y i) := rfl
theorem hostSqrt_apply (x : FVec Ideal s φ) (i : s.Idx) : Host.sqrt x i = Ideal.sqrt (x i) := rfl
theorem hostExp_apply (x : FVec Ideal s φ) (i : s.Idx) : Host.exp x i = Ideal.exp (x i) := rfl
theorem hostLog_apply (x : FVec Ideal s φ) (i : s.Idx) : Host.log x i = Ideal.log (x i) := rfl

end Pointwise

/-! ## The host's matrix product -/

/-- A plain `dot_general` of an `[M, K]` by a `[K, N]` array, at `(p, q)`. -/
theorem dotGeneral_plain_apply (M K N : ℕ) {φ₁ φ₂ : FTy} (sched : HostSchedule) (l : FVec Ideal ⟨2, ![M, K]⟩ φ₁)
    (r : FVec Ideal ⟨2, ![K, N]⟩ φ₂) (p : Fin M) (q : Fin N) :
    FloatOps.dotGeneral (DotDims.plain M K N) none sched l r (ix2 p q) = ∑ k : Fin K, l (ix2 p k) * r (ix2 k q) := by
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact LibRowOps.plain_lhs_row M K N _ _
      | ⟨1, _⟩ => exact (LibRowOps.plain_lhs_contr M K N _ _).trans hk)
  have er : (DotDims.plain M K N).rhsIdx (ix2 p q) ((contrEquiv1 (DotDims.plain M K N) K rfl rfl).symm k) = ix2 k q :=
    funext fun a => Fin.ext (by
      match a with
      | ⟨0, _⟩ => exact (LibRowOps.plain_rhs_contr M K N _ _).trans hk
      | ⟨1, _⟩ => exact LibRowOps.plain_rhs_col M K N _ _)
  rw [el, er]

/-! ## The host's reductions along the rows of a matrix -/

section Rows
variable {a b : ℕ} {φ : FTy} {u : Shape}

/-- The host's sum over the second axis, at row `p`: the initial value plus the sum of the row's entries. -/
theorem hostRowSum_apply (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩) (hu : 0 < u.numel)
    (p : Fin a) :
    Host.reduceAdd x init h' hu (ix1 p) = init (Shape.Idx.first hu) + ∑ k : Fin b, x (ix2 p k) := by
  unfold Host.reduceAdd
  rw [Ideal.hostReduceAdd_def, Ideal.hostReduceAdd_single h' h]
  exact congrArg (_ + ·) (Finset.sum_congr rfl fun k _ => congrArg x (LibRowOps.lift_row h p k))

/-- The host's maximum over the second axis, at row `p`: the fold of `max` from the initial value over the row's entries. -/
theorem hostRowMax_apply (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩) (hu : 0 < u.numel)
    (p : Fin a) :
    Host.reduce (FloatOps.maximumf (F := Ideal) (φ := φ)) x init h' hu (ix1 p)
      = (Finset.univ : Finset (Fin b)).fold max (init (Shape.Idx.first hu)) (fun k => x (ix2 p k)) := by
  rw [Host.reduce_eq_fold_single (FloatOps.maximumf (F := Ideal) (φ := φ)) x init h' h hu (ix1 p)]
  exact congrArg (Finset.fold max (init (Shape.Idx.first hu)) · Finset.univ) (funext fun k => congrArg x (LibRowOps.lift_row h p k))

end Rows

/-! ## `broadcast_in_dim` -/

section Bcast
variable {α : Type} {a b : ℕ}

/-- A scalar spread over any shape reads the scalar everywhere. -/
theorem bcast_scalar_apply {t : Shape} (h : (⟨0, ![]⟩ : Shape).BroadcastsInDim t ![]) (v : (⟨0, ![]⟩ : Shape).Idx → α) (j : t.Idx) :
    broadcastInDim t ![] h v j = v ix0 :=
  broadcastInDim_apply ![] h v j ix0 fun ax => ax.elim0

/-- A vector `[a]` made a column `[a, 1]` reads, at `(p, u)`, the vector at `p`. -/
theorem bcast_vec_col_apply (h : (⟨1, ![a]⟩ : Shape).BroadcastsInDim ⟨2, ![a, 1]⟩ ![0]) (v : (⟨1, ![a]⟩ : Shape).Idx → α)
    (p : Fin a) (u : Fin 1) : broadcastInDim ⟨2, ![a, 1]⟩ ![0] h v (ix2 p u) = v (ix1 p) :=
  broadcastInDim_apply ![0] h v (ix2 p u) (ix1 p) fun ax => by
    match ax with
    | ⟨0, _⟩ =>
      show p.val = if a = 1 then 0 else p.val
      split
      · have := p.isLt; omega
      · rfl

/-- A vector `[b]` made a row `[1, b]` reads, at `(u, c)`, the vector at `c`. -/
theorem bcast_vec_row_apply (h : (⟨1, ![b]⟩ : Shape).BroadcastsInDim ⟨2, ![1, b]⟩ ![1]) (v : (⟨1, ![b]⟩ : Shape).Idx → α)
    (u : Fin 1) (c : Fin b) : broadcastInDim ⟨2, ![1, b]⟩ ![1] h v (ix2 u c) = v (ix1 c) :=
  broadcastInDim_apply ![1] h v (ix2 u c) (ix1 c) fun ax => by
    match ax with
    | ⟨0, _⟩ =>
      show c.val = if b = 1 then 0 else c.val
      split
      · have := c.isLt; omega
      · rfl

/-- A column `[a, 1]` spread over `[a, b]` reads, at `(p, c)`, the column's entry of row `p`. -/
theorem bcast_col_apply (h : (⟨2, ![a, 1]⟩ : Shape).BroadcastsInDim ⟨2, ![a, b]⟩ ![0, 1]) (v : (⟨2, ![a, 1]⟩ : Shape).Idx → α)
    (p : Fin a) (c : Fin b) : broadcastInDim ⟨2, ![a, b]⟩ ![0, 1] h v (ix2 p c) = v (ix2 p (0 : Fin 1)) :=
  broadcastInDim_apply ![0, 1] h v (ix2 p c) (ix2 p (0 : Fin 1)) fun ax => by
    match ax with
    | ⟨0, _⟩ =>
      show p.val = if a = 1 then 0 else p.val
      split
      · have := p.isLt; omega
      · rfl
    | ⟨1, _⟩ => rfl

/-- A row `[1, b]` spread over `[a, b]` reads, at `(p, c)`, the row's entry of column `c`. -/
theorem bcast_row_apply (h : (⟨2, ![1, b]⟩ : Shape).BroadcastsInDim ⟨2, ![a, b]⟩ ![0, 1]) (v : (⟨2, ![1, b]⟩ : Shape).Idx → α)
    (p : Fin a) (c : Fin b) : broadcastInDim ⟨2, ![a, b]⟩ ![0, 1] h v (ix2 p c) = v (ix2 (0 : Fin 1) c) :=
  broadcastInDim_apply ![0, 1] h v (ix2 p c) (ix2 (0 : Fin 1) c) fun ax => by
    match ax with
    | ⟨0, _⟩ => rfl
    | ⟨1, _⟩ =>
      show c.val = if b = 1 then 0 else c.val
      split
      · have := c.isLt; omega
      · rfl

end Bcast

end Cert.LibHostRows
-- ==== Proof.RefRows.lean ====
/-
  The reference, row by row.

  The reference joins an edge's row with its two gathered node rows into a [500000, 384] array, multiplies by the
  whole first weight, and goes on through SiLU, the second layer and the layer normalisation on whole arrays. Read at
  entry (r, q), each whole-array operation reads row r: the products are sums over the contracted coordinate, the
  keepdims reductions are the row's sum spread back, jax's expansion of the logistic function is the logistic function
  (`1.0` is the number 1), and the joined row is the three rows laid end to end. So the result at (r, q) is the edge
  function of row r of the edge array and of the two gathered arrays, with the first layer in its three-slab form
  (`ref_eq`), for any three [128, 128] arrays that are the first weight's three slabs.
-/
import proofs.«106251_j79156247265436_1_alg».proof.Proof.Gen.ReferenceIdeal.Read
import proofs.«106251_j79156247265436_1_alg».proof.Proof.LibHostRows
import proofs.«106251_j79156247265436_1_alg».proof.Proof.RowSpec
import Idealize.ShloMosaic.Lib.Pipeline.Value
import Idealize.ShloMosaic.PureOps.IdealRules
import Idealize.ShloMosaic.PureOps.Ideal.Laws

noncomputable section

namespace Cert.ReferenceIdeal.Rows

open Idealize.ShloMosaic Idealize.ShloMosaic.ValueIdx Cert.ReferenceIdeal Cert.ReferenceIdeal.Gen Cert.ReferenceIdeal.Read Cert.EdgeRow

variable (r : Fin 500000) (q : Fin 128)

/-! ## The host's operations at an entry -/

theorem dot1_apply (l : FVec Ideal S500000x384 .f32) (w : FVec Ideal S384x128 .f32) :
    Host.dotGeneral dot_S500000x384_S384x128_S500000x128_1_0_0_1_n_n none l w (ix2 r q) = ∑ k : Fin 384, l (ix2 r k) * w (ix2 k q) :=
  LibHostRows.dotGeneral_plain_apply 500000 384 128 _ l w r q

theorem dot2_apply (l : FVec Ideal S500000x128 .f32) (w : FVec Ideal S128x128 .f32) :
    Host.dotGeneral dot_S500000x128_S128x128_S500000x128_1_0_0_1_n_n none l w (ix2 r q) = ∑ k : Fin 128, l (ix2 r k) * w (ix2 k q) :=
  LibHostRows.dotGeneral_plain_apply 500000 128 128 _ l w r q

/-- A sum along the rows, from a zero initial value: the row's sum. -/
theorem rsum_apply (x : FVec Ideal S500000x128 .f32) :
    Host.reduceAdd x (constant (F := Ideal) S_ .f32 0x00000000#32) reducesTo_S500000x128_S500000_d1 h_S_ (ix1 r)
      = ∑ k : Fin 128, x (ix2 r k) := by
  rw [LibHostRows.hostRowSum_apply x _ _ (by decide) _ r]
  show Ideal.ofBits .f32 0x00000000#32 + _ = _
  rw [Ideal.ofBits_zero_f32, zero_add]

/-- A [128] vector made a row and spread over the rows reads the vector at the column. -/
theorem row_apply (v : FVec Ideal S128 .f32) :
    broadcastInDim S500000x128 ![0, 1] bcast_S1x128_S500000x128_0_1 (broadcastInDim S1x128 ![1] bcast_S128_S1x128_1 v) (ix2 r q)
      = v (ix1 q) :=
  (LibHostRows.bcast_row_apply _ _ r q).trans (LibHostRows.bcast_vec_row_apply _ v 0 q)

/-- A [500000] vector made a column reads the vector at the row. -/
theorem col_apply (v : FVec Ideal S500000 .f32) (u : Fin 1) :
    broadcastInDim S500000x1 ![0] bcast_S500000_S500000x1_0 v (ix2 r u) = v (ix1 r) :=
  LibHostRows.bcast_vec_col_apply _ v r u

/-- A column spread over the 128 columns reads the column at the row. -/
theorem spread_apply (v : FVec Ideal S500000x1 .f32) :
    broadcastInDim S500000x128 ![0, 1] bcast_S500000x1_S500000x128_0_1 v (ix2 r q) = v (ix2 r (0 : Fin 1)) :=
  LibHostRows.bcast_col_apply _ v r q

/-- A scalar constant spread over any shape reads the constant's value. -/
theorem splat_apply {t : Shape} (h : S_.BroadcastsInDim t ![]) (w : BitVec 32) (j : t.Idx) :
    broadcastInDim t ![] h (constant (F := Ideal) S_ .f32 w) j = Ideal.ofBits .f32 w :=
  LibHostRows.bcast_scalar_apply h _ j

theorem hostRsqrt_apply {s : Shape} (x : FVec Ideal s .f32) (i : s.Idx) : Host.rsqrt x i = Ideal.rsqrt (x i) := rfl
theorem hostNegf_apply {s : Shape} (x : FVec Ideal s .f32) (i : s.Idx) : Host.negf x i = -(x i) := rfl

/-- The f32 word of `1.0` is the number one. -/
theorem one_f32 : Ideal.ofBits .f32 0x3F800000#32 = 1 := IdealRules.sign_bit.ideal_onePat .f32

/-! ## The joined row -/

section Joined
variable (x0 : FVec Ideal S500000x128 .f32) (x1 : FVec Ideal S100000x128 .f32) (x2 x3 : IVec S500000 32) (x4 : FVec Ideal S384x128 .f32)
    (x5 : FVec Ideal S128 .f32) (x6 : FVec Ideal S128x128 .f32) (x7 x8 x9 : FVec Ideal S128 .f32)

theorem cat_edge (k : Fin 128) :
    val_main_v14 (F := Ideal) x0 x1 x2 x3 (ix2 r (⟨k.val, by omega⟩ : Fin 384)) = x0 (ix2 r k) := by
  unfold val_main_v14
  exact concatenate_apply_piece (t := S500000x384) (1 : Fin 2) [⟨S500000x128, x0⟩, ⟨S500000x128, val_main_v6 (F := Ideal) x1 x2⟩, ⟨S500000x128, val_main_v13 (F := Ideal) x1 x3⟩] concatenates_S500000x128_S500000x128_S500000x128_S500000x384_d1 _ 0 (by show (0 : ℕ) < 3; omega) S500000x128 x0 rfl rfl 0 rfl (ix2 r k)
    (fun b hb => by match b with | ⟨0, _⟩ => rfl | ⟨1, _⟩ => exact absurd rfl hb) (Nat.zero_add _)

theorem cat_src (k : Fin 128) :
    val_main_v14 (F := Ideal) x0 x1 x2 x3 (ix2 r (⟨128 + k.val, by omega⟩ : Fin 384)) = val_main_v6 (F := Ideal) x1 x2 (ix2 r k) := by
  unfold val_main_v14
  exact concatenate_apply_piece (t := S500000x384) (1 : Fin 2) [⟨S500000x128, x0⟩, ⟨S500000x128, val_main_v6 (F := Ideal) x1 x2⟩, ⟨S500000x128, val_main_v13 (F := Ideal) x1 x3⟩] concatenates_S500000x128_S500000x128_S500000x128_S500000x384_d1 _ 1 (by show (1 : ℕ) < 3; omega) S500000x128 _ rfl rfl 128 rfl (ix2 r k)
    (fun b hb => by match b with | ⟨0, _⟩ => rfl | ⟨1, _⟩ => exact absurd rfl hb) rfl

theorem cat_dst (k : Fin 128) :
    val_main_v14 (F := Ideal) x0 x1 x2 x3 (ix2 r (⟨256 + k.val, by omega⟩ : Fin 384)) = val_main_v13 (F := Ideal) x1 x3 (ix2 r k) := by
  unfold val_main_v14
  exact concatenate_apply_piece (t := S500000x384) (1 : Fin 2) [⟨S500000x128, x0⟩, ⟨S500000x128, val_main_v6 (F := Ideal) x1 x2⟩, ⟨S500000x128, val_main_v13 (F := Ideal) x1 x3⟩] concatenates_S500000x128_S500000x128_S500000x128_S500000x384_d1 _ 2 (by show (2 : ℕ) < 3; omega) S500000x128 _ rfl rfl 256 rfl (ix2 r k)
    (fun b hb => by match b with | ⟨0, _⟩ => rfl | ⟨1, _⟩ => exact absurd rfl hb) rfl

/-! ## The stages at an entry -/

theorem v18_apply :
    val_main_v18 (F := Ideal) x0 x1 x2 x3 x4 x5 (ix2 r q)
      = hidden1 (fun k => val_main_v14 (F := Ideal) x0 x1 x2 x3 (ix2 r k)) (fun k j => x4 (ix2 k j)) (fun j => x5 (ix1 j)) q := by
  unfold val_main_v18 val_main_v17 val_main_v16 val_main_v15 hidden1
  rw [addf_apply, dot1_apply, row_apply]

theorem v19_apply : val_main_v19 (F := Ideal) x0 x1 x2 x3 x4 x5 (ix2 r q) = silu (val_main_v18 (F := Ideal) x0 x1 x2 x3 x4 x5 (ix2 r q)) := by
  unfold val_main_v19 val_main_call0_v5 val_main_call0_v4 val_main_call0_v3 val_main_call0_v2 val_main_call0_v1 val_main_call0_v0
    val_main_call0_cst val_main_call0_cst_0 silu Ideal.logistic
  rw [mulf_apply, LibHostRows.hostDivf_apply, addf_apply, splat_apply, one_f32]
  rfl

theorem v23_apply :
    val_main_v23 (F := Ideal) x0 x1 x2 x3 x4 x5 x6 x7 (ix2 r q)
      = dense (fun k => val_main_v19 (F := Ideal) x0 x1 x2 x3 x4 x5 (ix2 r k)) (fun k j => x6 (ix2 k j)) (fun j => x7 (ix1 j)) q := by
  unfold val_main_v23 val_main_v22 val_main_v21 val_main_v20 dense
  rw [addf_apply, dot2_apply, row_apply]

theorem v27_apply (u : Fin 1) :
    val_main_v27 (F := Ideal) x0 x1 x2 x3 x4 x5 x6 x7 (ix2 r u) = mean (fun k => val_main_v23 (F := Ideal) x0 x1 x2 x3 x4 x5 x6 x7 (ix2 r k)) := by
  unfold val_main_v27 val_main_v26 val_main_v25 val_main_v24 val_main_cst val_main_cst_3 mean
  rw [LibHostRows.hostDivf_apply, col_apply, rsum_apply, splat_apply]

theorem v34_apply (u : Fin 1) :
    val_main_v34 (F := Ideal) x0 x1 x2 x3 x4 x5 x6 x7 (ix2 r u) = variance (fun k => val_main_v23 (F := Ideal) x0 x1 x2 x3 x4 x5 x6 x7 (ix2 r k)) := by
  unfold val_main_v34 val_main_v33 val_main_v32 val_main_v31 val_main_v30 val_main_v29 val_main_v28 val_main_cst_4 val_main_cst_5 variance
  rw [LibHostRows.hostDivf_apply, col_apply, rsum_apply, splat_apply]
  refine congrArg (Ideal.div · c128) (Finset.sum_congr rfl fun k _ => ?_)
  rw [mulf_apply, subf_apply, spread_apply, v27_apply]

theorem v48_apply :
    val_main_v48 (F := Ideal) x0 x1 x2 x3 x4 x5 x6 x7 x8 x9 (ix2 r q)
      = normRes (fun k => val_main_v23 (F := Ideal) x0 x1 x2 x3 x4 x5 x6 x7 (ix2 r k)) (fun k => x0 (ix2 r k)) (fun j => x8 (ix1 j)) (fun j => x9 (ix1 j)) q := by
  unfold val_main_v48 val_main_v47 val_main_v46 val_main_v45 val_main_v44 val_main_v43 val_main_v42 val_main_v41 val_main_v40
    val_main_v39 val_main_v38 val_main_v37 val_main_v36 val_main_v35 val_main_cst_6 normRes
  rw [addf_apply, addf_apply, mulf_apply, mulf_apply, subf_apply, row_apply, row_apply, spread_apply, v27_apply, spread_apply,
    hostRsqrt_apply, addf_apply, v34_apply, splat_apply]

/-! ## The whole result -/

/-- The reference's result is the edge function on every row of the edge array and the two gathered arrays, for any
    three arrays `A`, `B`, `C` that are the 128-row slabs of the first weight. -/
theorem ref_eq (A B C : FVec Ideal S128x128 .f32)
    (hA : ∀ (k : Fin 128) (j : Fin 128), x4 (ix2 (⟨k.val, by omega⟩ : Fin 384) j) = A (ix2 k j))
    (hB : ∀ (k : Fin 128) (j : Fin 128), x4 (ix2 (⟨128 + k.val, by omega⟩ : Fin 384) j) = B (ix2 k j))
    (hC : ∀ (k : Fin 128) (j : Fin 128), x4 (ix2 (⟨256 + k.val, by omega⟩ : Fin 384) j) = C (ix2 k j)) :
    val_main_v48 (F := Ideal) x0 x1 x2 x3 x4 x5 x6 x7 x8 x9
      = rowsOut 500000 x0 (val_main_v6 (F := Ideal) x1 x2) (val_main_v13 (F := Ideal) x1 x3) A B C x6 x5 x7 x8 x9 := by
  funext i
  obtain ⟨r, q, rfl⟩ : ∃ (r : Fin 500000) (q : Fin 128), i = ix2 r q := ⟨i 0, i 1, eq_ix2 i⟩
  rw [v48_apply]
  simp only [v23_apply, v19_apply, v18_apply]
  rw [hidden1_eq_hidden3 _ _ _ (fun k => x0 (ix2 r k)) (fun k => val_main_v6 (F := Ideal) x1 x2 (ix2 r k))
    (fun k => val_main_v13 (F := Ideal) x1 x3 (ix2 r k)) (fun k j => A (ix2 k j)) (fun k j => B (ix2 k j)) (fun k j => C (ix2 k j))
    (cat_edge r x0 x1 x2 x3) (cat_src r x0 x1 x2 x3) (cat_dst r x0 x1 x2 x3) hA hB hC]
  rfl

end Joined

end Cert.ReferenceIdeal.Rows

end
-- ==== Proof.lean ====
/-
  The certificate of one message-passing layer on edges: a fused kernel against its jnp reference, over the extended reals.

  Both programs compute, for every edge r, with e its feature row and s, d the feature rows of its two end nodes,

      out r = LayerNorm (SiLU ([e | s | d] · W₁ + b₁) · W₂ + b₂) · γ + β + e.

  The reference does it on whole [500000, ·] arrays: it joins the three rows into one of 384 entries and multiplies by
  the whole first weight. The kernel pads the three row arrays to 123 blocks of 4096 rows, multiplies each block by
  its own 128-row slab of the first weight and adds the three products, and cuts the padding off again. At the
  extended reals a change of float format is the identity, so the two differ in one step only: one sum over 384
  coordinates against three sums over 128 added in order, which are the same number because a finite sum splits at
  128 and 256 and addition is associative (no entry has to be finite, and the precondition is not opened). Every
  other operation is the same on both sides, read at an entry: jax's expansion of the logistic function is the
  logistic function, a keepdims mean is the row's sum over 128 spread back, the two programs gather the node rows
  by the same indices. The padding rows never reach a kept row, since the layer is row-local.

  The word-level kernel and the idealized kernel terminate without a fault and leave their arguments as launched
  (the generated frames); the reference does too (its generated run); the idealization rewrote nothing that asks for a
  proof (`preserves` is `True`).
-/
import proofs.«106251_j79156247265436_1_alg».proof.Defs
import proofs.«106251_j79156247265436_1_alg».proof.Proof.Gen.Kernel
import proofs.«106251_j79156247265436_1_alg».proof.Proof.Gen.Kernel.Skeleton
import proofs.«106251_j79156247265436_1_alg».proof.Proof.Gen.Kernel.Launch
import proofs.«106251_j79156247265436_1_alg».proof.Proof.Gen.Kernel.Points
import proofs.«106251_j79156247265436_1_alg».proof.Proof.Gen.Kernel.Frame
import proofs.«106251_j79156247265436_1_alg».proof.Proof.Gen.KernelIdeal
import proofs.«106251_j79156247265436_1_alg».proof.Proof.Gen.KernelIdeal.Skeleton
import proofs.«106251_j79156247265436_1_alg».proof.Proof.Gen.KernelIdeal.Launch
import proofs.«106251_j79156247265436_1_alg».proof.Proof.Gen.KernelIdeal.Points
import proofs.«106251_j79156247265436_1_alg».proof.Proof.Gen.KernelIdeal.Frame
import proofs.«106251_j79156247265436_1_alg».proof.Proof.Gen.ReferenceIdeal
import proofs.«106251_j79156247265436_1_alg».proof.Proof.Gen.Pre_finite_inputs
import proofs.«106251_j79156247265436_1_alg».proof.Proof.Gen.ReferenceIdeal.Run
import proofs.«106251_j79156247265436_1_alg».proof.Proof.Gen.ReferenceIdeal.Read
import proofs.«106251_j79156247265436_1_alg».proof.Proof.KernelHost
import proofs.«106251_j79156247265436_1_alg».proof.Proof.RefRows
import Idealize.ShloMosaic.Adequacy
import Idealize.ShloMosaic.Init

noncomputable section

namespace Cert.Proof

open Idealize.ShloMosaic Idealize.ShloMosaic.TcCoe Idealize.SL.Sem

/-- The word-level kernel: the generated frame. -/
theorem frame_k : Cert.frame_Kernel := fun m ρ _ => Cert.Kernel.Gen.frame m ρ

/-- The idealized kernel: the generated frame. -/
theorem frame_ki : Cert.frame_KernelIdeal := fun m ρ _ => Cert.KernelIdeal.Gen.frame m ρ

/-- The reference: its generated run, the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The two idealized programs end with equal results: the edge function on every row, and the node array as launched. -/
theorem algebraic : Cert.algebraic_KernelIdeal_ReferenceIdeal := by
  intro m ρ m' ρ' _ hagree
  refine ⟨fun c => Cert.KernelIdeal.Glue.result m c, fun c => (m ((c.tc : Thread Cert.KernelIdeal.nD Cert.KernelIdeal.τ).loc Cert.KernelIdeal.main_arg1)), Cert.KernelIdeal.Glue.run m ρ, ?_⟩
  refine (θ_run Cert.ReferenceIdeal.defs _ _).mono (fun _ h c => ⟨(h c).1.trans ?_, (h c).2.1.trans (hagree c).2.1, (h c).2.2⟩)
    (Cert.ReferenceIdeal.Value.run (F := Ideal) m' ρ')
  obtain ⟨h0, h1, h2, h3, h4, h5, h6, h7, h8, h9⟩ := hagree c
  rw [Cert.ReferenceIdeal.Read.val_main_v48_eq, h0, h1, h2, h3, h4, h5, h6, h7, h8, h9]
  exact Cert.ReferenceIdeal.Rows.ref_eq _ _ _ _ _ _ _ _ _ _ _ _ _ (Cert.KernelIdeal.Glue.slab0 _) (Cert.KernelIdeal.Glue.slab1 _) (Cert.KernelIdeal.Glue.slab2 _)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
